-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000 : Shape := ⟨1, ![50000]⟩
abbrev S2x800000 : Shape := ⟨2, ![2, 800000]⟩
abbrev S800000 : Shape := ⟨1, ![800000]⟩
abbrev S800000x64 : Shape := ⟨2, ![800000, 64]⟩
abbrev S101x128 : Shape := ⟨2, ![101, 128]⟩
abbrev S128x64 : Shape := ⟨2, ![128, 64]⟩
abbrev S128 : Shape := ⟨1, ![128]⟩
abbrev S128x256 : Shape := ⟨2, ![128, 256]⟩
abbrev S_ : Shape := ⟨0, ![]⟩
abbrev S1x800000 : Shape := ⟨2, ![1, 800000]⟩

class Facts : Prop where
  bcast_S_S800000 : S_.BroadcastsInDim S800000 (![] : Fin 0 → Fin S800000.rank)
  reducesTo_S800000_S_d0 : S800000.ReducesTo [0] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S101x128 : S_.BroadcastsInDim S101x128 (![] : Fin 0 → Fin S101x128.rank)
  reducesTo_S101x128_S_d0_1 : S101x128.ReducesTo [0, 1] S_
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S50000 : S_.BroadcastsInDim S50000 (![] : Fin 0 → Fin S50000.rank)
  reducesTo_S50000_S_d0 : S50000.ReducesTo [0] S_
  slices_S2x800000_S1x800000_1_0 : S2x800000.Slices ![1, 0] S1x800000
  shapeCasts_S1x800000_S800000 : S1x800000.ShapeCasts S800000

variable [Facts]

def fn_part3 {F : FTy → Type} [FloatOps F] (main_arg1 : IVec S2x800000 32) (main_v46 : IVec S_ 1) (main_v50 : IVec S800000 1) : IVec S_ 1 :=
  let main_c_19 : IVec S_ 1 := constantI S_ 1 1#1
  let main_v51 : IVec S_ 1 := (fun x v => Host.reduce IntOp.andi x v reducesTo_S800000_S_d0 h_S_) main_v50 main_c_19
  let main_v52 : IVec S_ 1 := andi main_v46 main_v51
  let main_v53 : IVec S1x800000 32 := (extractStridedSlice S1x800000 ![1, 0] · slices_S2x800000_S1x800000_1_0) main_arg1
  let main_v54 : IVec S800000 32 := shapeCast S800000 main_v53 shapeCasts_S1x800000_S800000
  let main_c_20 : IVec S_ 32 := constantI S_ 32 50000#32
  let main_v55 : IVec S800000 32 := broadcastInDim S800000 ![] bcast_S_S800000 main_c_20
  let main_v56 : IVec S800000 1 := cmpi .slt main_v54 main_v55
  let main_c_21 : IVec S_ 1 := constantI S_ 1 1#1
  let main_v57 : IVec S_ 1 := (fun x v => Host.reduce IntOp.andi x v reducesTo_S800000_S_d0 h_S_) main_v56 main_c_21
  let main_v58 : IVec S_ 1 := andi main_v52 main_v57
  main_v58

def fn_part2 {F : FTy → Type} [FloatOps F] (main_arg0 : IVec S50000 32) (main_arg1 : IVec S2x800000 32) (main_arg9 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_c_14 : IVec S_ 32 := constantI S_ 32 0#32
  let main_v39 : IVec S50000 32 := broadcastInDim S50000 ![] bcast_S_S50000 main_c_14
  let main_v40 : IVec S50000 1 := cmpi .sge main_arg0 main_v39
  let main_c_15 : IVec S_ 1 := constantI S_ 1 1#1
  let main_v41 : IVec S_ 1 := (fun x v => Host.reduce IntOp.andi x v reducesTo_S50000_S_d0 h_S_) main_v40 main_c_15
  let main_v42 : IVec S_ 1 := andi main_v38 main_v41
  let main_c_16 : IVec S_ 32 := constantI S_ 32 101#32
  let main_v43 : IVec S50000 32 := broadcastInDim S50000 ![] bcast_S_S50000 main_c_16
  let main_v44 : IVec S50000 1 := cmpi .slt main_arg0 main_v43
  let main_c_17 : IVec S_ 1 := constantI S_ 1 1#1
  let main_v45 : IVec S_ 1 := (fun x v => Host.reduce IntOp.andi x v reducesTo_S50000_S_d0 h_S_) main_v44 main_c_17
  let main_v46 : IVec S_ 1 := andi main_v42 main_v45
  let main_v47 : IVec S1x800000 32 := (extractStridedSlice S1x800000 ![1, 0] · slices_S2x800000_S1x800000_1_0) main_arg1
  let main_v48 : IVec S800000 32 := shapeCast S800000 main_v47 shapeCasts_S1x800000_S800000
  let main_c_18 : IVec S_ 32 := constantI S_ 32 0#32
  let main_v49 : IVec S800000 32 := broadcastInDim S800000 ![] bcast_S_S800000 main_c_18
  let main_v50 : IVec S800000 1 := cmpi .sge main_v48 main_v49
  fn_part3 (F := F) main_arg1 main_v46 main_v50

def fn_part1 {F : FTy → Type} [FloatOps F] (main_arg0 : IVec S50000 32) (main_arg1 : IVec S2x800000 32) (main_arg6 : FVec F S128x64 .f32) (main_arg7 : FVec F S128 .f32) (main_arg8 : FVec F S128x256 .f32) (main_arg9 : FVec F S128 .f32) (main_v13 : IVec S_ 1) (main_v16 : IVec S101x128 1) : IVec S_ 1 :=
  let main_c_5 : IVec S_ 1 := constantI S_ 1 1#1
  let main_v17 : IVec S_ 1 := (fun x v => Host.reduce IntOp.andi x v reducesTo_S101x128_S_d0_1 h_S_) main_v16 main_c_5
  let main_v18 : IVec S_ 1 := andi main_v13 main_v17
  let main_v19 : FVec F S128x64 .f32 := Host.absf main_arg6
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x256 .f32 := Host.absf main_arg8
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  fn_part2 (F := F) main_arg0 main_arg1 main_arg9 main_v33

def fn {F : FTy → Type} [FloatOps F] (main_arg0 : IVec S50000 32) (main_arg1 : IVec S2x800000 32) (main_arg2 : FVec F S800000 .f32) (main_arg3 : FVec F S800000x64 .f32) (main_arg4 : FVec F S101x128 .f32) (main_arg5 : FVec F S101x128 .f32) (main_arg6 : FVec F S128x64 .f32) (main_arg7 : FVec F S128 .f32) (main_arg8 : FVec F S128x256 .f32) (main_arg9 : FVec F S128 .f32) : IVec S_ 1 :=
  let main_v0 : FVec F S800000 .f32 := Host.absf main_arg2
  let main_cst : FVec F S_ .f32 := constant S_ .f32 0x7F800000#32
  let main_v1 : FVec F S800000 .f32 := broadcastInDim S800000 ![] bcast_S_S800000 main_cst
  let main_v2 : IVec S800000 1 := cmpf .olt main_v0 main_v1
  let main_c : IVec S_ 1 := constantI S_ 1 1#1
  let main_v3 : IVec S_ 1 := (fun x v => Host.reduce IntOp.andi x v reducesTo_S800000_S_d0 h_S_) main_v2 main_c
  let main_v4 : FVec F S800000x64 .f32 := Host.absf main_arg3
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S101x128 .f32 := Host.absf main_arg4
  let main_cst_2 : FVec F S_ .f32 := constant S_ .f32 0x7F800000#32
  let main_v10 : FVec F S101x128 .f32 := broadcastInDim S101x128 ![] bcast_S_S101x128 main_cst_2
  let main_v11 : IVec S101x128 1 := cmpf .olt main_v9 main_v10
  let main_c_3 : IVec S_ 1 := constantI S_ 1 1#1
  let main_v12 : IVec S_ 1 := (fun x v => Host.reduce IntOp.andi x v reducesTo_S101x128_S_d0_1 h_S_) main_v11 main_c_3
  let main_v13 : IVec S_ 1 := andi main_v8 main_v12
  let main_v14 : FVec F S101x128 .f32 := Host.absf main_arg5
  let main_cst_4 : FVec F S_ .f32 := constant S_ .f32 0x7F800000#32
  let main_v15 : FVec F S101x128 .f32 := broadcastInDim S101x128 ![] bcast_S_S101x128 main_cst_4
  let main_v16 : IVec S101x128 1 := cmpf .olt main_v14 main_v15
  fn_part1 (F := F) main_arg0 main_arg1 main_arg6 main_arg7 main_arg8 main_arg9 main_v13 main_v16
-- ==== Kernel.lean ====
abbrev S50000 : Shape := ⟨1, ![50000]⟩
abbrev S2x800000 : Shape := ⟨2, ![2, 800000]⟩
abbrev S800000 : Shape := ⟨1, ![800000]⟩
abbrev S800000x64 : Shape := ⟨2, ![800000, 64]⟩
abbrev S101x128 : Shape := ⟨2, ![101, 128]⟩
abbrev S128x64 : Shape := ⟨2, ![128, 64]⟩
abbrev S128 : Shape := ⟨1, ![128]⟩
abbrev S128x256 : Shape := ⟨2, ![128, 256]⟩
abbrev S50000x1 : Shape := ⟨2, ![50000, 1]⟩
abbrev S1x800000 : Shape := ⟨2, ![1, 800000]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S128x128 : Shape := ⟨2, ![128, 128]⟩
abbrev S64x128 : Shape := ⟨2, ![64, 128]⟩
abbrev S1x128 : Shape := ⟨2, ![1, 128]⟩
abbrev S800000x128 : Shape := ⟨2, ![800000, 128]⟩
abbrev S5000x64 : Shape := ⟨2, ![5000, 64]⟩
abbrev S5000x1 : Shape := ⟨2, ![5000, 1]⟩
abbrev S5000x128 : Shape := ⟨2, ![5000, 128]⟩
abbrev S50000x128 : Shape := ⟨2, ![50000, 128]⟩

abbrev nBuf : Space → Nat
  | .hbm => 62
  | .vmem => 21
  | .smem => 0
  | _ => 0

abbrev bufTy : (tb : Table) → Fin (tcTables nBuf tb) → BufTy
  | .hbm, ⟨0, _⟩ => ⟨S50000, .i32⟩
  | .hbm, ⟨1, _⟩ => ⟨S2x800000, .i32⟩
  | .hbm, ⟨2, _⟩ => ⟨S800000, .f32⟩
  | .hbm, ⟨3, _⟩ => ⟨S800000x64, .f32⟩
  | .hbm, ⟨4, _⟩ => ⟨S101x128, .f32⟩
  | .hbm, ⟨5, _⟩ => ⟨S101x128, .f32⟩
  | .hbm, ⟨6, _⟩ => ⟨S128x64, .f32⟩
  | .hbm, ⟨7, _⟩ => ⟨S128, .f32⟩
  | .hbm, ⟨8, _⟩ => ⟨S128x256, .f32⟩
  | .hbm, ⟨9, _⟩ => ⟨S128, .f32⟩
  | .hbm, ⟨10, _⟩ => ⟨S50000x1, .i32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S1, .i32⟩
  | .hbm, ⟨24, _⟩ => ⟨S_, .i32⟩
  | .hbm, ⟨25, _⟩ => ⟨S800000x1, .i32⟩
  | .hbm, ⟨26, _⟩ => ⟨S800000x1, .i1⟩
  | .hbm, ⟨27, _⟩ => ⟨S1x1, .i32⟩
  | .hbm, ⟨28, _⟩ => ⟨S800000x1, .i32⟩
  | .hbm, ⟨29, _⟩ => ⟨S800000x1, .i1⟩
  | .hbm, ⟨30, _⟩ => ⟨S800000x1, .i1⟩
  | .hbm, ⟨31, _⟩ => ⟨S_, .i1⟩
  | .hbm, ⟨32, _⟩ => ⟨S800000, .i1⟩
  | .hbm, ⟨33, _⟩ => ⟨S800000, .i32⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S_, .f32⟩
  | .hbm, ⟨39, _⟩ => ⟨S128x128, .f32⟩
  | .hbm, ⟨40, _⟩ => ⟨S_, .i32⟩
  | .hbm, ⟨41, _⟩ => ⟨S1, .i32⟩
  | .hbm, ⟨42, _⟩ => ⟨S128x128, .f32⟩
  | .hbm, ⟨43, _⟩ => ⟨S_, .f32⟩
  | .hbm, ⟨44, _⟩ => ⟨S128x128, .f32⟩
  | .hbm, ⟨45, _⟩ => ⟨S_, .i32⟩
  | .hbm, ⟨46, _⟩ => ⟨S1, .i32⟩
  | .hbm, ⟨47, _⟩ => ⟨S128x128, .f32⟩
  | .hbm, ⟨48, _⟩ => ⟨S64x128, .f32⟩
  | .hbm, ⟨49, _⟩ => ⟨S1x128, .f32⟩
  | .hbm, ⟨50, _⟩ => ⟨S800000x1, .f32⟩
  | .hbm, ⟨51, _⟩ => ⟨S800000x128, .f32⟩
  | .hbm, ⟨52, _⟩ => ⟨S_, .f32⟩
  | .hbm, ⟨53, _⟩ => ⟨S50000x128, .f32⟩
  | .hbm, ⟨54, _⟩ => ⟨S800000x1, .i32⟩
  | .hbm, ⟨55, _⟩ => ⟨S50000x128, .f32⟩
  | .hbm, ⟨56, _⟩ => ⟨S128x128, .f32⟩
  | .hbm, ⟨57, _⟩ => ⟨S128x128, .f32⟩
  | .hbm, ⟨58, _⟩ => ⟨S128x128, .f32⟩
  | .hbm, ⟨59, _⟩ => ⟨S128x128, .f32⟩
  | .hbm, ⟨60, _⟩ => ⟨S1x128, .f32⟩
  | .hbm, ⟨61, _⟩ => ⟨S50000x128, .f32⟩
  | .local _ .vmem, ⟨0, _⟩ => ⟨S5000x64, .f32⟩
  | .local _ .vmem, ⟨1, _⟩ => ⟨S5000x64, .f32⟩
  | .local _ .vmem, ⟨2, _⟩ => ⟨S5000x1, .f32⟩
  | .local _ .vmem, ⟨3, _⟩ => ⟨S5000x1, .f32⟩
  | .local _ .vmem, ⟨4, _⟩ => ⟨S5000x1, .i32⟩
  | .local _ .vmem, ⟨5, _⟩ => ⟨S5000x1, .i32⟩
  | .local _ .vmem, ⟨6, _⟩ => ⟨S128x128, .f32⟩
  | .local _ .vmem, ⟨7, _⟩ => ⟨S64x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S5000x1, .i32⟩
  | .local _ .vmem, ⟨12, _⟩ => ⟨S5000x1, .i32⟩
  | .local _ .vmem, ⟨13, _⟩ => ⟨S128x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S128x128, .f32⟩
  | .local _ .vmem, ⟨18, _⟩ => ⟨S1x128, .f32⟩
  | .local _ .vmem, ⟨19, _⟩ => ⟨S5000x128, .f32⟩
  | .local _ .vmem, ⟨20, _⟩ => ⟨S5000x128, .f32⟩
  | _, _ => ⟨S50000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_c_1 : Ref sig .tc := ⟨.hbm, 23, rfl⟩
abbrev main_call0_c_2 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_3 : Ref sig .tc := ⟨.hbm, 31, rfl⟩
abbrev main_call0_v12 : Ref sig .tc := ⟨.hbm, 32, rfl⟩
abbrev main_call0_v13 : Ref sig .tc := ⟨.hbm, 33, rfl⟩
abbrev main_call0_c_4 : Ref sig .tc := ⟨.hbm, 34, rfl⟩
abbrev main_call0_v14 : Ref sig .tc := ⟨.hbm, 35, rfl⟩
abbrev main_v5 : Ref sig .tc := ⟨.hbm, 36, rfl⟩
abbrev main_v6 : Ref sig .tc := ⟨.hbm, 37, rfl⟩
abbrev main_cst : Ref sig .tc := ⟨.hbm, 38, rfl⟩
abbrev main_v7 : Ref sig .tc := ⟨.hbm, 39, rfl⟩
abbrev main_c : Ref sig .tc := ⟨.hbm, 40, rfl⟩
abbrev main_v8 : Ref sig .tc := ⟨.hbm, 41, rfl⟩
abbrev main_v9 : Ref sig .tc := ⟨.hbm, 42, rfl⟩
abbrev main_cst_0 : Ref sig .tc := ⟨.hbm, 43, rfl⟩
abbrev main_v10 : Ref sig .tc := ⟨.hbm, 44, rfl⟩
abbrev main_c_1 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_cst_2 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg6_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem6_1 : DmaSem sig := 20

abbrev nD : Nat := 1
abbrev τ : Topo := Topo.v7x

variable {F : FTy → Type} [FloatOps F]

abbrev grid0 : Pipeline.Grid := ⟨1, ![160], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  shapeCasts_S50000_S50000x1 : S50000.ShapeCasts S50000x1
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  shapeCasts_S800000_S800000x1 : S800000.ShapeCasts S800000x1
  bcast_S_S128x128 : S_.BroadcastsInDim S128x128 (![] : Fin 0 → Fin S128x128.rank)
  bcast_S_S1 : S_.BroadcastsInDim S1 (![] : Fin 0 → Fin S1.rank)
  transposes_S128x64_S64x128_1_0 : S128x64.Transposes [1, 0] S64x128
  shapeCasts_S128_S1x128 : S128.ShapeCasts S1x128
  inb_S5000x64_S5000x64_0_0 : ∀ a, (![0, 0] : Fin 2 → Nat) a + S5000x64.size a ≤ S5000x64.size a
  h_S5000x64 : 0 < S5000x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x128_d1_w32 : S5000x128.Iotas .tc 32 [1]
  broadcasts_S5000x1_S5000x128 : S5000x1.Broadcasts S5000x128
  natLt_1_32 : 1 < 32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S50000x128 : S_.BroadcastsInDim S50000x128 (![] : Fin 0 → Fin S50000x128.rank)
  slices_S128x256_S128x128_0_0 : S128x256.Slices ![0, 0] S128x128
  slices_S128x256_S128x128_0_128 : S128x256.Slices ![0, 128] S128x128
  transposes_S128x128_S128x128_1_0 : S128x128.Transposes [1, 0] S128x128
  shapeCasts_S5000x128_S5000x128 : S5000x128.ShapeCasts S5000x128
  gather_S50000_S800000x1_S800000_n_0_n_n_0_1_1_wf : GatherDims.WF S50000 S800000x1 S800000 [] [0] [] [0] [] 1 ![1]
  scatter_S128x128_S1_S101x128_01_n_0_0_wf : ScatterDims.WF S128x128 S1 S101x128 [0, 1] [] [0] 0
  dot_S5000x128_S128x128_S5000x128_1_0_0_1_n_n_wf : DotDims.WF S5000x128 S128x128 S5000x128 [1] [0] [0] [1] [] []
  dot_S5000x64_S64x128_S5000x128_1_0_0_1_n_n_wf : DotDims.WF S5000x64 S64x128 S5000x128 [1] [0] [0] [1] [] []
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S800000x64.size a
  hwx0_0 : ∀ i : grid0.Coords, EltTy.bits .f32 = 32 ∨ (Rect.block (s := S800000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S800000x1.size a
  hwx0_1 : ∀ i : grid0.Coords, EltTy.bits .f32 = 32 ∨ (Rect.block (s := S800000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S800000x1.size a
  hwx0_2 : ∀ i : grid0.Coords, EltTy.bits .i32 = 32 ∨ (Rect.block (s := S800000x1) S5000x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S800000x128.size a
  hwx0_6 : ∀ i : grid0.Coords, EltTy.bits .f32 = 32 ∨ (Rect.block (s := S800000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x1.size a ≤ S50000x1.size a
  hwx1_0 : ∀ i : grid1.Coords, EltTy.bits .i32 = 32 ∨ (Rect.block (s := S50000x1) S5000x1.size (cc1_transform_0 i) (hinb1_0 i)).WholeWords (EltTy.packing .i32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)

variable [Facts₀]

def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def scatter_S128x128_S1_S101x128_01_n_0_0 : ScatterDims S128x128 S1 S101x128 where
  updateWindowDims := [0, 1]
  insertedWindowDims := []
  scatterDimsToOperandDims := [0]
  indexVectorDim := 0
  wf := scatter_S128x128_S1_S101x128_01_n_0_0_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg3) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v0) S5000x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v19) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v22) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v23) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v24) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v25) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000 : Shape := ⟨1, ![50000]⟩
abbrev S2x800000 : Shape := ⟨2, ![2, 800000]⟩
abbrev S800000 : Shape := ⟨1, ![800000]⟩
abbrev S800000x64 : Shape := ⟨2, ![800000, 64]⟩
abbrev S101x128 : Shape := ⟨2, ![101, 128]⟩
abbrev S128x64 : Shape := ⟨2, ![128, 64]⟩
abbrev S128 : Shape := ⟨1, ![128]⟩
abbrev S128x256 : Shape := ⟨2, ![128, 256]⟩
abbrev S1x800000 : Shape := ⟨2, ![1, 800000]⟩
abbrev S_ : Shape := ⟨0, ![]⟩
abbrev S50000x1 : Shape := ⟨2, ![50000, 1]⟩
abbrev S50000x128 : Shape := ⟨2, ![50000, 128]⟩
abbrev S64x128 : Shape := ⟨2, ![64, 128]⟩
abbrev S800000x128 : Shape := ⟨2, ![800000, 128]⟩
abbrev S1x128 : Shape := ⟨2, ![1, 128]⟩
abbrev S800000x1 : Shape := ⟨2, ![800000, 1]⟩
abbrev S50000x256 : Shape := ⟨2, ![50000, 256]⟩
abbrev S256x128 : Shape := ⟨2, ![256, 128]⟩

abbrev nBuf : Space → Nat
  | .hbm => 78
  | .vmem => 0
  | .smem => 0
  | _ => 0

abbrev bufTy : (tb : Table) → Fin (tcTables nBuf tb) → BufTy
  | .hbm, ⟨0, _⟩ => ⟨S50000, .i32⟩
  | .hbm, ⟨1, _⟩ => ⟨S2x800000, .i32⟩
  | .hbm, ⟨2, _⟩ => ⟨S800000, .f32⟩
  | .hbm, ⟨3, _⟩ => ⟨S800000x64, .f32⟩
  | .hbm, ⟨4, _⟩ => ⟨S101x128, .f32⟩
  | .hbm, ⟨5, _⟩ => ⟨S101x128, .f32⟩
  | .hbm, ⟨6, _⟩ => ⟨S128x64, .f32⟩
  | .hbm, ⟨7, _⟩ => ⟨S128, .f32⟩
  | .hbm, ⟨8, _⟩ => ⟨S128x256, .f32⟩
  | .hbm, ⟨9, _⟩ => ⟨S128, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .i32⟩
  | .hbm, ⟨15, _⟩ => ⟨S50000, .i32⟩
  | .hbm, ⟨16, _⟩ => ⟨S50000, .i1⟩
  | .hbm, ⟨17, _⟩ => ⟨S_, .i32⟩
  | .hbm, ⟨18, _⟩ => ⟨S50000, .i32⟩
  | .hbm, ⟨19, _⟩ => ⟨S50000, .i32⟩
  | .hbm, ⟨20, _⟩ => ⟨S50000, .i32⟩
  | .hbm, ⟨21, _⟩ => ⟨S50000x1, .i32⟩
  | .hbm, ⟨22, _⟩ => ⟨S50000x128, .f32⟩
  | .hbm, ⟨23, _⟩ => ⟨S_, .f32⟩
  | .hbm, ⟨24, _⟩ => ⟨S800000, .f32⟩
  | .hbm, ⟨25, _⟩ => ⟨S800000, .f32⟩
  | .hbm, ⟨26, _⟩ => ⟨S_, .f32⟩
  | .hbm, ⟨27, _⟩ => ⟨S800000, .f32⟩
  | .hbm, ⟨28, _⟩ => ⟨S800000, .f32⟩
  | .hbm, ⟨29, _⟩ => ⟨S800000, .f32⟩
  | .hbm, ⟨30, _⟩ => ⟨S_, .f32⟩
  | .hbm, ⟨31, _⟩ => ⟨S800000, .f32⟩
  | .hbm, ⟨32, _⟩ => ⟨S800000, .f32⟩
  | .hbm, ⟨33, _⟩ => ⟨S_, .f32⟩
  | .hbm, ⟨34, _⟩ => ⟨S800000, .f32⟩
  | .hbm, ⟨35, _⟩ => ⟨S800000, .f32⟩
  | .hbm, ⟨36, _⟩ => ⟨S_, .f32⟩
  | .hbm, ⟨37, _⟩ => ⟨S800000, .f32⟩
  | .hbm, ⟨38, _⟩ => ⟨S800000, .i1⟩
  | .hbm, ⟨39, _⟩ => ⟨S800000, .f32⟩
  | .hbm, ⟨40, _⟩ => ⟨S800000, .f32⟩
  | .hbm, ⟨41, _⟩ => ⟨S64x128, .f32⟩
  | .hbm, ⟨42, _⟩ => ⟨S800000x128, .f32⟩
  | .hbm, ⟨43, _⟩ => ⟨S1x128, .f32⟩
  | .hbm, ⟨44, _⟩ => ⟨S800000x128, .f32⟩
  | .hbm, ⟨45, _⟩ => ⟨S800000x128, .f32⟩
  | .hbm, ⟨46, _⟩ => ⟨S800000x1, .f32⟩
  | .hbm, ⟨47, _⟩ => ⟨S800000x128, .f32⟩
  | .hbm, ⟨48, _⟩ => ⟨S800000x128, .f32⟩
  | .hbm, ⟨49, _⟩ => ⟨S_, .i32⟩
  | .hbm, ⟨50, _⟩ => ⟨S50000, .i32⟩
  | .hbm, ⟨51, _⟩ => ⟨S50000, .i1⟩
  | .hbm, ⟨52, _⟩ => ⟨S_, .i32⟩
  | .hbm, ⟨53, _⟩ => ⟨S50000, .i32⟩
  | .hbm, ⟨54, _⟩ => ⟨S50000, .i32⟩
  | .hbm, ⟨55, _⟩ => ⟨S50000, .i32⟩
  | .hbm, ⟨56, _⟩ => ⟨S50000x1, .i32⟩
  | .hbm, ⟨57, _⟩ => ⟨S50000x128, .f32⟩
  | .hbm, ⟨58, _⟩ => ⟨S_, .i32⟩
  | .hbm, ⟨59, _⟩ => ⟨S800000, .i32⟩
  | .hbm, ⟨60, _⟩ => ⟨S800000, .i1⟩
  | .hbm, ⟨61, _⟩ => ⟨S_, .i32⟩
  | .hbm, ⟨62, _⟩ => ⟨S800000, .i32⟩
  | .hbm, ⟨63, _⟩ => ⟨S800000, .i32⟩
  | .hbm, ⟨64, _⟩ => ⟨S800000, .i32⟩
  | .hbm, ⟨65, _⟩ => ⟨S800000x1, .i32⟩
  | .hbm, ⟨66, _⟩ => ⟨S800000x128, .f32⟩
  | .hbm, ⟨67, _⟩ => ⟨S800000x128, .f32⟩
  | .hbm, ⟨68, _⟩ => ⟨S_, .f32⟩
  | .hbm, ⟨69, _⟩ => ⟨S50000x128, .f32⟩
  | .hbm, ⟨70, _⟩ => ⟨S800000x1, .i32⟩
  | .hbm, ⟨71, _⟩ => ⟨S50000x128, .f32⟩
  | .hbm, ⟨72, _⟩ => ⟨S50000x256, .f32⟩
  | .hbm, ⟨73, _⟩ => ⟨S256x128, .f32⟩
  | .hbm, ⟨74, _⟩ => ⟨S50000x128, .f32⟩
  | .hbm, ⟨75, _⟩ => ⟨S1x128, .f32⟩
  | .hbm, ⟨76, _⟩ => ⟨S50000x128, .f32⟩
  | .hbm, ⟨77, _⟩ => ⟨S50000x128, .f32⟩
  | _, _ => ⟨S50000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_c_6 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_c_7 : Ref sig .tc := ⟨.hbm, 58, rfl⟩
abbrev main_v39 : Ref sig .tc := ⟨.hbm, 59, rfl⟩
abbrev main_v40 : Ref sig .tc := ⟨.hbm, 60, rfl⟩
abbrev main_c_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_9 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S50000_S50000x1_0 : S50000.BroadcastsInDim S50000x1 (![0] : Fin 1 → Fin S50000x1.rank)
  bcast_S_S800000 : S_.BroadcastsInDim S800000 (![] : Fin 0 → Fin S800000.rank)
  transposes_S128x64_S64x128_1_0 : S128x64.Transposes [1, 0] S64x128
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  concatenates_S50000x128_S50000x128_S50000x256_d1 : Shape.Concatenates [S50000x128, S50000x128] S50000x256 1
  transposes_S128x256_S256x128_1_0 : S128x256.Transposes [1, 0] S256x128
  bcast_S1x128_S50000x128_0_1 : S1x128.BroadcastsInDim S50000x128 (![0, 1] : Fin 2 → Fin S50000x128.rank)
  gather_S101x128_S50000x1_S50000x128_1_0_n_n_0_1_1128_wf : GatherDims.WF S101x128 S50000x1 S50000x128 [1] [0] [] [0] [] 1 ![1, 128]
  dot_S800000x64_S64x128_S800000x128_1_0_0_1_n_n_wf : DotDims.WF S800000x64 S64x128 S800000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x256_S256x128_S50000x128_1_0_0_1_n_n_wf : DotDims.WF S50000x256 S256x128 S50000x128 [1] [0] [0] [1] [] []

variable [Facts₀]

def gather_S101x128_S50000x1_S50000x128_1_0_n_n_0_1_1128 : GatherDims S101x128 S50000x1 S50000x128 where
  offsetDims := [1]
  collapsedSliceDims := [0]
  operandBatchingDims := []
  startIndicesBatchingDims := []
  startIndexMap := [0]
  indexVectorDim := 1
  sliceSizes := ![1, 128]
  wf := gather_S101x128_S50000x1_S50000x128_1_0_n_n_0_1_1128_wf
def dot_S800000x64_S64x128_S800000x128_1_0_0_1_n_n : DotDims S800000x64 S64x128 S800000x128 where
  lhsContracting := [1]
  rhsContracting := [0]
  lhsNonContracting := [0]
  rhsNonContracting := [1]
  lhsBatch := []
  rhsBatch := []
  wf := dot_S800000x64_S64x128_S800000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.PreDecode.lean ====
/-
  UNTRUSTED — THE INTEGER PRECONDITION, READ BACK. The precondition is a conjunction of twelve reductions by "and",
  each of a one-bit array, and the claim states the conjunction is 1. Its last four conjuncts compare the two integer
  arguments with constants, signed: every element z of the first argument has 0 ≤ z < 101, and every element col of
  row 1 of the second has 0 ≤ col < 50000. A conjunction that is 1 has every conjunct 1; a reduction by "and" that
  is 1 met only 1s; a signed comparison that is 1 is the inequality between the signed readings.
-/
import proofs.«410608_j59622736003308_3_alg».proof.Defs
import proofs.«410608_j59622736003308_3_alg».proof.Proof.Gen.Pre_finite_inputs
import Idealize.ShloMosaic.Lib.ReduceAll
import Idealize.ShloMosaic.Lib.ValueIdx
import Idealize.ShloMosaic.Lib.Pipeline.Value

noncomputable section

namespace Cert.PreDecode

open Idealize.ShloMosaic Idealize.ShloMosaic.ValueIdx Idealize.SL.Sem
open Cert.Pre_finite_inputs

/-- The scalar shape has one index. -/
theorem subsingleton_S_ : Subsingleton S_.Idx := ⟨fun a b => funext fun d => d.elim0⟩
attribute [local instance] subsingleton_S_

/-- A pointwise "and" of one-bit arrays is 1 at an index exactly when both are. -/
theorem andi_apply_eq_one {s : Shape} (x y : IVec s 1) (i : s.Idx) : andi x y i = 1#1 ↔ x i = 1#1 ∧ y i = 1#1 :=
  IntOp.andi_eq_one

/-- The reshape of row 1 of a [2, 800000] array, read at e, is the array at (1, e). -/
theorem col_apply [hP : Cert.Pre_finite_inputs.Facts] (a1 : IVec S2x800000 32) (e : Fin 800000) :
    shapeCast S800000 (extractStridedSlice S1x800000 ![1, 0] a1 hP.slices_S2x800000_S1x800000_1_0) hP.shapeCasts_S1x800000_S800000 (ix1 e)
      = a1 (ix2 (1 : Fin 2) e) := by
  rw [shapeCast_apply _ hP.shapeCasts_S1x800000_S800000 (ix1 e) (ix2 (0 : Fin 1) e)
    (by rewrite [Shape.rowMajor_val_two, Shape.rowMajor_val_one]; show 0 * 800000 + e.val = e.val; omega)]
  exact extractStridedSlice_apply ![1, 0] a1 hP.slices_S2x800000_S1x800000_1_0 (ix2 (0 : Fin 1) e) (ix2 (1 : Fin 2) e)
    (fun a => match a with
      | ⟨0, _⟩ => by show 1 = 1 + 0; omega
      | ⟨1, _⟩ => by show e.val = 0 + e.val; omega)

/-- THE PRECONDITION DECODED, over the arrays: the four integer ranges. -/
theorem decode [hP : Cert.Pre_finite_inputs.Facts] {F : FTy → Type} [FloatOps F]
    (a0 : IVec S50000 32) (a1 : IVec S2x800000 32) (a2 : FVec F S800000 .f32) (a3 : FVec F S800000x64 .f32)
    (a4 : FVec F S101x128 .f32) (a5 : FVec F S101x128 .f32) (a6 : FVec F S128x64 .f32) (a7 : FVec F S128 .f32)
    (a8 : FVec F S128x256 .f32) (a9 : FVec F S128 .f32)
    (h : fn (F := F) a0 a1 a2 a3 a4 a5 a6 a7 a8 a9 = fun _ => 1#1) :
    (∀ n : Fin 50000, 0 ≤ (a0 (ix1 n)).toInt ∧ (a0 (ix1 n)).toInt < 101)
      ∧ ∀ e : Fin 800000, 0 ≤ (a1 (ix2 (1 : Fin 2) e)).toInt ∧ (a1 (ix2 (1 : Fin 2) e)).toInt < 50000 := by
  have e := congrFun h ix0
  unfold fn fn_part1 fn_part2 fn_part3 at e
  dsimp only at e
  obtain ⟨e, hc1⟩ := (andi_apply_eq_one _ _ _).1 e
  obtain ⟨e, hc0⟩ := (andi_apply_eq_one _ _ _).1 e
  obtain ⟨e, hz1⟩ := (andi_apply_eq_one _ _ _).1 e
  obtain ⟨-, hz0⟩ := (andi_apply_eq_one _ _ _).1 e
  refine ⟨fun n => ⟨?_, ?_⟩, fun e => ⟨?_, ?_⟩⟩
  · have := Host.reduce_andi_all _ _ _ _ _ hz0 (ix1 n)
    exact IntOp.cmpi_sge.1 this
  · have := Host.reduce_andi_all _ _ _ _ _ hz1 (ix1 n)
    exact IntOp.cmpi_slt.1 this
  · have := Host.reduce_andi_all _ _ _ _ _ hc0 (ix1 e)
    have := IntOp.cmpi_sge.1 this
    rwa [col_apply] at this
  · have := Host.reduce_andi_all _ _ _ _ _ hc1 (ix1 e)
    have := IntOp.cmpi_slt.1 this
    rwa [col_apply] at this

/-- Every element of the first argument the launch memory holds is in [0, 101), read signed. -/
theorem z_range [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (n : Fin 50000) :
    0 ≤ (m ((c.tc : Thread Cert.KernelIdeal.nD Cert.KernelIdeal.τ).loc Cert.KernelIdeal.main_arg0) (ix1 n)).toInt
      ∧ (m ((c.tc : Thread Cert.KernelIdeal.nD Cert.KernelIdeal.τ).loc Cert.KernelIdeal.main_arg0) (ix1 n)).toInt < 101 :=
  (decode _ _ _ _ _ _ _ _ _ _ (h c)).1 n

/-- Every element of row 1 of the second argument the launch memory holds is in [0, 50000), read signed. -/
theorem col_range [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (e : Fin 800000) :
    0 ≤ (m ((c.tc : Thread Cert.KernelIdeal.nD Cert.KernelIdeal.τ).loc Cert.KernelIdeal.main_arg1) (ix2 (1 : Fin 2) e)).toInt
      ∧ (m ((c.tc : Thread Cert.KernelIdeal.nD Cert.KernelIdeal.τ).loc Cert.KernelIdeal.main_arg1) (ix2 (1 : Fin 2) e)).toInt < 50000 :=
  (decode _ _ _ _ _ _ _ _ _ _ (h c)).2 e

end Cert.PreDecode

end
-- ==== Proof.KernelRegions.lean ====
/- Each region's output array after the region, read at one index. A region's grid point `t` writes back block `t` of
   its output array — rows `5000 t … 5000 t + 4999`, all 128 columns — and what it writes is the body's payload of the
   input windows' blocks at `t`; different points write disjoint blocks, so the array's entry at row `5000 t + p` is the
   payload's entry at row `p` of point `t`. The row-blocked input windows' blocks are the same rows of their arrays; the
   other input windows are their whole arrays at every point. Stated at any entry contents `V` of the region. -/
import proofs.«410608_j59622736003308_3_alg».proof.Proof.Gen.KernelIdeal.Frame
import Idealize.ShloMosaic.Lib.Pipeline.Value
import Idealize.ShloMosaic.Lib.ValueIdx

set_option maxRecDepth 16384

noncomputable section

namespace Cert.KernelIdeal.Regions

open Cert.KernelIdeal Cert.KernelIdeal.Gen
open Idealize.ShloMosaic Idealize.ShloMosaic.TcCoe Idealize.ShloMosaic.ValueIdx
open Idealize.SL.Sem
open Idealize.ShloMosaic.Pipeline (Dat)

variable {F : FTy → Type} [FloatOps F]
variable (V : (c : Dev nD) → (b : Ref sig .tc) → Buf (Elt F) ((c : Thread nD τ).loc b))

/-! # Region 0: the messages along the edges, 160 points of 5000 edges -/

/-- The zero offsets of a rank-2 rectangle, however spelt, are the constant zero. -/
theorem zeros2 : (![0, 0] : Fin 2 → Nat) = fun _ => 0 :=
  funext fun a => match a with | ⟨0, _⟩ => rfl | ⟨1, _⟩ => rfl

/-- Region 0's block indices over its 160 grid points: the edge-blocked windows (the edges' radial features, the edges'
    distances, the atomic number at each edge's second end, the output messages) are at block row `t`, column 0; the three
    whole-array windows (the padded neighbour embedding table, the projection matrix transposed, the projection's bias row) stay
    at block (0, 0). -/
theorem index0 : ∀ t : Fin cfg0.N,
      win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- What point `t` of region 0 writes back, entry by entry: the body stores one payload over its whole output buffer, and
    each of its loads reads a whole input buffer, so the write-back is the payload of the six input blocks at `t`. -/
theorem flushed0_apply (c : Dev nD) (t : Fin cfg0.N) (y : S5000x128.Idx) :
    (dat0 (F := F) V c).flushed 6 t y
      = k0_pay1 (iblk0 V c 0 t) (iblk0 V c 1 t) (iblk0 V c 2 t) (iblk0 V c 3 t) (iblk0 V c 4 t) (iblk0 V c 5 t) y := by
  show (cfg0.win 6).cut (grid0.coords t) ((dat0 V c).after 6 t) y = _
  rw [after0_6]
  unfold out0_6
  rw [View.canon_unit_zero zeros2]
  simp only [View.ld_unit_zero (S := S5000x64) zeros2, View.ld_unit_zero (S := S5000x1) zeros2, View.ld_unit_zero (S := S128x128) zeros2,
    View.ld_unit_zero (S := S64x128) zeros2, View.ld_unit_zero (S := S1x128) zeros2]
  rfl

/-- An index of region 0's output array lies in point `t`'s block iff, on each axis, its coordinate lies in the block's range. -/
theorem mem_blk0_6 (t : Fin cfg0.N) (i : S800000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v16).slice (win0_6.rect t)).set ↔ _
  rw [View.set_slice_whole, Rect.mem_set_unit]
  exact Iff.rfl

/-- Two different points of region 0 write disjoint blocks of the output array: block `t` is rows `5000 t … 5000 t + 4999`. -/
theorem disjoint0_6 (t t' : Fin cfg0.N) (hf : (cfg0.win 6).flush t = true) (hf' : (cfg0.win 6).flush t' = true) (hne : t ≠ t') :
    Disjoint ((cfg0.win 6).blk t).view.set ((cfg0.win 6).blk t').view.set := by
  rw [Finset.disjoint_left]
  intro i hi hi'
  rw [mem_blk0_6] at hi hi'
  have a : win0_6.index t (0 : Fin 2) * 5000 ≤ (i 0).val ∧ (i 0).val < win0_6.index t (0 : Fin 2) * 5000 + 5000 := hi 0
  have b : win0_6.index t' (0 : Fin 2) * 5000 ≤ (i 0).val ∧ (i 0).val < win0_6.index t' (0 : Fin 2) * 5000 + 5000 := hi' 0
  have e := (index0 t).2.2.2.2.2.2.2.2.2.2.2.2.1
  have e' := (index0 t').2.2.2.2.2.2.2.2.2.2.2.2.1
  exact hne (Fin.ext (by omega))

/-- Entry `(p, j)` of point `t`'s output block sits in the output array at row `5000 t + p`, column `j`. -/
theorem emb0_6 (t : Fin cfg0.N) (p : Fin 5000) (j : Fin 128) (h : 5000 * t.val + p.val < 800000) :
    ((cfg0.win 6).blk t).view.emb (ix2 p j) = (ix2 ⟨5000 * t.val + p.val, h⟩ j : S800000x128.Idx) := by
  have e0 := (index0 t).2.2.2.2.2.2.2.2.2.2.2.2.1
  have e1 := (index0 t).2.2.2.2.2.2.2.2.2.2.2.2.2
  funext a; apply Fin.ext
  match a with
  | ⟨0, _⟩ => show win0_6.index t (0 : Fin 2) * 5000 + 1 * p.val = 5000 * t.val + p.val; omega
  | ⟨1, _⟩ => show win0_6.index t (1 : Fin 2) * 128 + 1 * j.val = j.val; omega

/-- REGION 0's OUTPUT ARRAY after its last point, at row `5000 t + p` and column `j`: the payload of the input blocks at
    point `t`, at `(p, j)` — the blocks are disjoint, so what point `t` wrote is never overwritten. -/
theorem region0_apply (c : Dev nD) (t : Fin cfg0.N) (p : Fin 5000) (j : Fin 128) (h : 5000 * t.val + p.val < 800000) :
    ((dat0 (F := F) V c).arrAt 6 cfg0.N : S800000x128.Idx → Elt F .f32) (ix2 ⟨5000 * t.val + p.val, h⟩ j)
      = k0_pay1 (iblk0 V c 0 t) (iblk0 V c 1 t) (iblk0 V c 2 t) (iblk0 V c 3 t) (iblk0 V c 4 t) (iblk0 V c 5 t) (ix2 p j) := by
  have e := (dat0 (F := F) V c).arrAt_emb_eq_flushed 6 disjoint0_6 t (flush0_6 t) (ix2 p j)
  rw [emb0_6 t p j h] at e
  exact e.trans (flushed0_apply V c t (ix2 p j))

/-- Region 0's block of the edges' radial features at point `t` is rows `5000 t … 5000 t + 4999` of the array. -/
theorem iblk0_0_apply (c : Dev nD) (t : Fin cfg0.N) (p : Fin 5000) (k : Fin 64) (h : 5000 * t.val + p.val < 800000) :
    (iblk0 V c 0 t : Vec F S5000x64 .f32) (ix2 p k) = (V c main_arg3 : S800000x64.Idx → Elt F .f32) (ix2 ⟨5000 * t.val + p.val, h⟩ k) := by
  have e0 := (index0 t).1
  have e1 := (index0 t).2.1
  unfold iblk0
  rw [View.read_apply]
  show V c main_arg3 _ = V c main_arg3 _
  congr 1
  funext a; apply Fin.ext
  match a with
  | ⟨0, _⟩ => show win0_0.index t (0 : Fin 2) * 5000 + 1 * p.val = 5000 * t.val + p.val; omega
  | ⟨1, _⟩ => show win0_0.index t (1 : Fin 2) * 64 + 1 * k.val = k.val; omega

/-- Region 0's block of the edges' distances (a column) at point `t` is rows `5000 t … 5000 t + 4999` of the array. -/
theorem iblk0_1_apply (c : Dev nD) (t : Fin cfg0.N) (p : Fin 5000) (q : Fin 1) (h : 5000 * t.val + p.val < 800000) :
    (iblk0 V c 1 t : Vec F S5000x1 .f32) (ix2 p q) = (V c main_v15 : S800000x1.Idx → Elt F .f32) (ix2 ⟨5000 * t.val + p.val, h⟩ q) := by
  have e0 := (index0 t).2.2.1
  have e1 := (index0 t).2.2.2.1
  unfold iblk0
  rw [View.read_apply]
  show V c main_v15 _ = V c main_v15 _
  congr 1
  funext a; apply Fin.ext
  match a with
  | ⟨0, _⟩ => show win0_1.index t (0 : Fin 2) * 5000 + 1 * p.val = 5000 * t.val + p.val; omega
  | ⟨1, _⟩ => show win0_1.index t (1 : Fin 2) * 1 + 1 * q.val = q.val; omega

/-- Region 0's block of the atomic numbers at the edges' second ends (a column) at point `t` is rows `5000 t … 5000 t + 4999` of the array. -/
theorem iblk0_2_apply (c : Dev nD) (t : Fin cfg0.N) (p : Fin 5000) (q : Fin 1) (h : 5000 * t.val + p.val < 800000) :
    (iblk0 V c 2 t : Vec F S5000x1 .i32) (ix2 p q) = (V c main_v6 : S800000x1.Idx → Elt F .i32) (ix2 ⟨5000 * t.val + p.val, h⟩ q) := by
  have e0 := (index0 t).2.2.2.2.1
  have e1 := (index0 t).2.2.2.2.2.1
  unfold iblk0
  rw [View.read_apply]
  show V c main_v6 _ = V c main_v6 _
  congr 1
  funext a; apply Fin.ext
  match a with
  | ⟨0, _⟩ => show win0_2.index t (0 : Fin 2) * 5000 + 1 * p.val = 5000 * t.val + p.val; omega
  | ⟨1, _⟩ => show win0_2.index t (1 : Fin 2) * 1 + 1 * q.val = q.val; omega

/-- Region 0's fourth window (the padded neighbour embedding table) is its whole array at every point. -/
theorem iblk0_3_eq (c : Dev nD) (t : Fin cfg0.N) :
    (iblk0 V c 3 t : Vec F S128x128 .f32) = (V c main_v12 : S128x128.Idx → Elt F .f32) := by
  have e0 := (index0 t).2.2.2.2.2.2.1
  have e1 := (index0 t).2.2.2.2.2.2.2.1
  funext y
  unfold iblk0
  rw [View.read_apply]
  show V c main_v12 _ = V c main_v12 _
  congr 1
  funext a; apply Fin.ext
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- Region 0's fifth window (the projection matrix transposed) is its whole array at every point. -/
theorem iblk0_4_eq (c : Dev nD) (t : Fin cfg0.N) :
    (iblk0 V c 4 t : Vec F S64x128 .f32) = (V c main_v13 : S64x128.Idx → Elt F .f32) := by
  have e0 := (index0 t).2.2.2.2.2.2.2.2.1
  have e1 := (index0 t).2.2.2.2.2.2.2.2.2.1
  funext y
  unfold iblk0
  rw [View.read_apply]
  show V c main_v13 _ = V c main_v13 _
  congr 1
  funext a; apply Fin.ext
  match a with
  | ⟨0, _⟩ => show win0_4.index t (0 : Fin 2) * 64 + 1 * (y 0).val = (y 0).val; omega
  | ⟨1, _⟩ => show win0_4.index t (1 : Fin 2) * 128 + 1 * (y 1).val = (y 1).val; omega

/-- Region 0's sixth window (the projection's bias, a row) is its whole array at every point. -/
theorem iblk0_5_eq (c : Dev nD) (t : Fin cfg0.N) :
    (iblk0 V c 5 t : Vec F S1x128 .f32) = (V c main_v14 : S1x128.Idx → Elt F .f32) := by
  have e0 := (index0 t).2.2.2.2.2.2.2.2.2.2.1
  have e1 := (index0 t).2.2.2.2.2.2.2.2.2.2.2.1
  funext y
  unfold iblk0
  rw [View.read_apply]
  show V c main_v14 _ = V c main_v14 _
  congr 1
  funext a; apply Fin.ext
  match a with
  | ⟨0, _⟩ => show win0_5.index t (0 : Fin 2) * 1 + 1 * (y 0).val = (y 0).val; omega
  | ⟨1, _⟩ => show win0_5.index t (1 : Fin 2) * 128 + 1 * (y 1).val = (y 1).val; omega

/-! # Region 1: the nodes' combination, 10 points of 5000 nodes -/

/-- Region 1's block indices over its 10 grid points: the node-blocked windows (the nodes' atomic numbers, the messages
    summed per node, the output) are at block row `t`, column 0; the four whole-array windows (the padded atom embedding table, the
    two halves of the combining matrix transposed, its bias row) stay at block (0, 0). -/
theorem index1 : ∀ t : Fin cfg1.N,
      win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- What point `t` of region 1 writes back, entry by entry: the payload of the six input blocks at `t` (one store over the
    whole output buffer, each load a whole input buffer). -/
theorem flushed1_apply (c : Dev nD) (t : Fin cfg1.N) (y : S5000x128.Idx) :
    (dat1 (F := F) V c).flushed 6 t y
      = k1_pay1 (iblk1 V c 0 t) (iblk1 V c 1 t) (iblk1 V c 2 t) (iblk1 V c 3 t) (iblk1 V c 4 t) (iblk1 V c 5 t) y := by
  show (cfg1.win 6).cut (grid1.coords t) ((dat1 V c).after 6 t) y = _
  rw [after1_6]
  unfold out1_6
  rw [View.canon_unit_zero zeros2]
  simp only [View.ld_unit_zero (S := S5000x1) zeros2, View.ld_unit_zero (S := S128x128) zeros2, View.ld_unit_zero (S := S5000x128) zeros2,
    View.ld_unit_zero (S := S1x128) zeros2]
  rfl

/-- An index of region 1's output array lies in point `t`'s block iff, on each axis, its coordinate lies in the block's range. -/
theorem mem_blk1_6 (t : Fin cfg1.N) (i : S50000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v25).slice (win1_6.rect t)).set ↔ _
  rw [View.set_slice_whole, Rect.mem_set_unit]
  exact Iff.rfl

/-- Two different points of region 1 write disjoint blocks of the output array: block `t` is rows `5000 t … 5000 t + 4999`. -/
theorem disjoint1_6 (t t' : Fin cfg1.N) (hf : (cfg1.win 6).flush t = true) (hf' : (cfg1.win 6).flush t' = true) (hne : t ≠ t') :
    Disjoint ((cfg1.win 6).blk t).view.set ((cfg1.win 6).blk t').view.set := by
  rw [Finset.disjoint_left]
  intro i hi hi'
  rw [mem_blk1_6] at hi hi'
  have a : win1_6.index t (0 : Fin 2) * 5000 ≤ (i 0).val ∧ (i 0).val < win1_6.index t (0 : Fin 2) * 5000 + 5000 := hi 0
  have b : win1_6.index t' (0 : Fin 2) * 5000 ≤ (i 0).val ∧ (i 0).val < win1_6.index t' (0 : Fin 2) * 5000 + 5000 := hi' 0
  have e := (index1 t).2.2.2.2.2.2.2.2.2.2.2.2.1
  have e' := (index1 t').2.2.2.2.2.2.2.2.2.2.2.2.1
  exact hne (Fin.ext (by omega))

/-- Entry `(p, j)` of point `t`'s output block sits in the output array at row `5000 t + p`, column `j`. -/
theorem emb1_6 (t : Fin cfg1.N) (p : Fin 5000) (j : Fin 128) (h : 5000 * t.val + p.val < 50000) :
    ((cfg1.win 6).blk t).view.emb (ix2 p j) = (ix2 ⟨5000 * t.val + p.val, h⟩ j : S50000x128.Idx) := by
  have e0 := (index1 t).2.2.2.2.2.2.2.2.2.2.2.2.1
  have e1 := (index1 t).2.2.2.2.2.2.2.2.2.2.2.2.2
  funext a; apply Fin.ext
  match a with
  | ⟨0, _⟩ => show win1_6.index t (0 : Fin 2) * 5000 + 1 * p.val = 5000 * t.val + p.val; omega
  | ⟨1, _⟩ => show win1_6.index t (1 : Fin 2) * 128 + 1 * j.val = j.val; omega

/-- REGION 1's OUTPUT ARRAY after its last point, at row `5000 t + p` and column `j`: the payload of the input blocks at
    point `t`, at `(p, j)`. -/
theorem region1_apply (c : Dev nD) (t : Fin cfg1.N) (p : Fin 5000) (j : Fin 128) (h : 5000 * t.val + p.val < 50000) :
    ((dat1 (F := F) V c).arrAt 6 cfg1.N : S50000x128.Idx → Elt F .f32) (ix2 ⟨5000 * t.val + p.val, h⟩ j)
      = k1_pay1 (iblk1 V c 0 t) (iblk1 V c 1 t) (iblk1 V c 2 t) (iblk1 V c 3 t) (iblk1 V c 4 t) (iblk1 V c 5 t) (ix2 p j) := by
  have e := (dat1 (F := F) V c).arrAt_emb_eq_flushed 6 disjoint1_6 t (flush1_6 t) (ix2 p j)
  rw [emb1_6 t p j h] at e
  exact e.trans (flushed1_apply V c t (ix2 p j))

/-- Region 1's block of the nodes' atomic numbers (a column) at point `t` is rows `5000 t … 5000 t + 4999` of the array. -/
theorem iblk1_0_apply (c : Dev nD) (t : Fin cfg1.N) (p : Fin 5000) (q : Fin 1) (h : 5000 * t.val + p.val < 50000) :
    (iblk1 V c 0 t : Vec F S5000x1 .i32) (ix2 p q) = (V c main_v0 : S50000x1.Idx → Elt F .i32) (ix2 ⟨5000 * t.val + p.val, h⟩ q) := by
  have e0 := (index1 t).1
  have e1 := (index1 t).2.1
  unfold iblk1
  rw [View.read_apply]
  show V c main_v0 _ = V c main_v0 _
  congr 1
  funext a; apply Fin.ext
  match a with
  | ⟨0, _⟩ => show win1_0.index t (0 : Fin 2) * 5000 + 1 * p.val = 5000 * t.val + p.val; omega
  | ⟨1, _⟩ => show win1_0.index t (1 : Fin 2) * 1 + 1 * q.val = q.val; omega

/-- Region 1's block of the messages summed per node at point `t` is rows `5000 t … 5000 t + 4999` of the array. -/
theorem iblk1_2_apply (c : Dev nD) (t : Fin cfg1.N) (p : Fin 5000) (k : Fin 128) (h : 5000 * t.val + p.val < 50000) :
    (iblk1 V c 2 t : Vec F S5000x128 .f32) (ix2 p k) = (V c main_v19 : S50000x128.Idx → Elt F .f32) (ix2 ⟨5000 * t.val + p.val, h⟩ k) := by
  have e0 := (index1 t).2.2.2.2.1
  have e1 := (index1 t).2.2.2.2.2.1
  unfold iblk1
  rw [View.read_apply]
  show V c main_v19 _ = V c main_v19 _
  congr 1
  funext a; apply Fin.ext
  match a with
  | ⟨0, _⟩ => show win1_2.index t (0 : Fin 2) * 5000 + 1 * p.val = 5000 * t.val + p.val; omega
  | ⟨1, _⟩ => show win1_2.index t (1 : Fin 2) * 128 + 1 * k.val = k.val; omega

/-- Region 1's second window (the padded atom embedding table) is its whole array at every point. -/
theorem iblk1_1_eq (c : Dev nD) (t : Fin cfg1.N) :
    (iblk1 V c 1 t : Vec F S128x128 .f32) = (V c main_v9 : S128x128.Idx → Elt F .f32) := by
  have e0 := (index1 t).2.2.1
  have e1 := (index1 t).2.2.2.1
  funext y
  unfold iblk1
  rw [View.read_apply]
  show V c main_v9 _ = V c main_v9 _
  congr 1
  funext a; apply Fin.ext
  match a with
  | ⟨0, _⟩ => show win1_1.index t (0 : Fin 2) * 128 + 1 * (y 0).val = (y 0).val; omega
  | ⟨1, _⟩ => show win1_1.index t (1 : Fin 2) * 128 + 1 * (y 1).val = (y 1).val; omega

/-- Region 1's fourth window (the combining matrix's first half, transposed) is its whole array at every point. -/
theorem iblk1_3_eq (c : Dev nD) (t : Fin cfg1.N) :
    (iblk1 V c 3 t : Vec F S128x128 .f32) = (V c main_v22 : S128x128.Idx → Elt F .f32) := by
  have e0 := (index1 t).2.2.2.2.2.2.1
  have e1 := (index1 t).2.2.2.2.2.2.2.1
  funext y
  unfold iblk1
  rw [View.read_apply]
  show V c main_v22 _ = V c main_v22 _
  congr 1
  funext a; apply Fin.ext
  match a with
  | ⟨0, _⟩ => show win1_3.index t (0 : Fin 2) * 128 + 1 * (y 0).val = (y 0).val; omega
  | ⟨1, _⟩ => show win1_3.index t (1 : Fin 2) * 128 + 1 * (y 1).val = (y 1).val; omega

/-- Region 1's fifth window (the combining matrix's second half, transposed) is its whole array at every point. -/
theorem iblk1_4_eq (c : Dev nD) (t : Fin cfg1.N) :
    (iblk1 V c 4 t : Vec F S128x128 .f32) = (V c main_v23 : S128x128.Idx → Elt F .f32) := by
  have e0 := (index1 t).2.2.2.2.2.2.2.2.1
  have e1 := (index1 t).2.2.2.2.2.2.2.2.2.1
  funext y
  unfold iblk1
  rw [View.read_apply]
  show V c main_v23 _ = V c main_v23 _
  congr 1
  funext a; apply Fin.ext
  match a with
  | ⟨0, _⟩ => show win1_4.index t (0 : Fin 2) * 128 + 1 * (y 0).val = (y 0).val; omega
  | ⟨1, _⟩ => show win1_4.index t (1 : Fin 2) * 128 + 1 * (y 1).val = (y 1).val; omega

/-- Region 1's sixth window (the combining bias, a row) is its whole array at every point. -/
theorem iblk1_5_eq (c : Dev nD) (t : Fin cfg1.N) :
    (iblk1 V c 5 t : Vec F S1x128 .f32) = (V c main_v24 : S1x128.Idx → Elt F .f32) := by
  have e0 := (index1 t).2.2.2.2.2.2.2.2.2.2.1
  have e1 := (index1 t).2.2.2.2.2.2.2.2.2.2.2.1
  funext y
  unfold iblk1
  rw [View.read_apply]
  show V c main_v24 _ = V c main_v24 _
  congr 1
  funext a; apply Fin.ext
  match a with
  | ⟨0, _⟩ => show win1_5.index t (0 : Fin 2) * 1 + 1 * (y 0).val = (y 0).val; omega
  | ⟨1, _⟩ => show win1_5.index t (1 : Fin 2) * 128 + 1 * (y 1).val = (y 1).val; omega

end Cert.KernelIdeal.Regions

end
-- ==== Proof.Spec.lean ====
/-
  The scalar mathematics both programs share, stated once over the extended reals, with no program in sight.
  The kernel and the reference both compute, per edge, a projected feature row scaled by a cosine cutoff of the
  edge's length and multiplied by an embedding row selected by an atomic number, sum these per target node, and
  finish with a linear layer over the node's own embedding row laid beside the sum. They differ in three spellings,
  each an identity on the extended reals:
  * the cutoff's angle: the kernel multiplies the length by one constant, the reference multiplies by another and
    divides by five; the first constant is exactly a fifth of the second, and a product of extended reals by real
    factors may be regrouped freely (multiplication there is commutative and associative);
  * a row selected from a table: the kernel sums the table's rows against a 0/1 vector with a single one (a product
    with zero is zero and with one the factor itself, for every extended real); the reference reads the row;
  * a sum over 256 columns is the sum over the first 128 plus the sum over the last 128.
-/
import Idealize.ShloMosaic.PureOps.Ideal
import Idealize.ShloMosaic.PureOps.Ideal.Laws
import Idealize.ShloMosaic.Lib.ValueIdx

noncomputable section

namespace Cert.Spec

open Idealize.ShloMosaic

/-- A lookup's start index as the host keeps it: the word read signed, kept inside the table's N rows. -/
def clampRow (N : Nat) (hN : 0 < N) (w : BitVec 32) : Fin N := ⟨min w.toInt.toNat (N - 1), by omega⟩

/-- A word that is a row number already is its own clamped row. -/
theorem clampRow_val (N : Nat) (hN : 0 < N) (w : BitVec 32) (h0 : 0 ≤ w.toInt) (h1 : w.toInt < N) :
    (clampRow N hN w).val = w.toNat := by
  have h32 := w.isLt
  have e : w.toInt = w.toNat := by
    unfold BitVec.toInt at h0 ⊢
    split
    · rfl
    · rename_i h; rw [if_neg h] at h0; omega
  unfold clampRow
  show min w.toInt.toNat (N - 1) = w.toNat
  rw [e] at h1 ⊢
  have : w.toNat < N := by exact_mod_cast h1
  simp only [Int.toNat_natCast]
  omega

/-- Is the length below the cutoff radius 5? -/
def below5 (d : EReal) : BitVec 1 := Ideal.cmp .olt d (Ideal.ofBits .f32 0x40A00000#32)

/-- The cosine cutoff as the reference spells it: ½ (cos (π₃₂ d / 5) + 1), zero from the radius on. -/
def cutoff (d : EReal) : EReal :=
  (Ideal.ofBits .f32 0x3F000000#32 * (Ideal.cos (Ideal.div (Ideal.ofBits .f32 0x40490FDB#32 * d) (Ideal.ofBits .f32 0x40A00000#32))
      + Ideal.ofBits .f32 0x3F800000#32)) * (((below5 d).toNat : ℝ) : EReal)

/-- The same as the kernel spells it: the angle by one folded constant, the 0/1 factor through a 32-bit word. -/
def cutoffK (d : EReal) : EReal :=
  (Ideal.ofBits .f32 0x3F000000#32 * (Ideal.cos (Ideal.ofBits .f32 0x3F20D97C#32 * d) + Ideal.ofBits .f32 0x3F800000#32))
    * (((((below5 d).setWidth 32).toInt : ℤ) : ℝ) : EReal)

/-- The 0/1 weight of table row v for the word w: one exactly when w is the number v. -/
def oh (w : BitVec 32) (v : Fin 128) : EReal :=
  (((((IntOp.cmpi .eq w (BitVec.ofNat 32 v.val)).setWidth 32).toInt : ℤ) : ℝ) : EReal)

/-- Column k of the first half, and of the second half, of 256 columns. -/
def lo (k : Fin 128) : Fin 256 := ⟨k.val, by omega⟩
def hi (k : Fin 128) : Fin 256 := ⟨128 + k.val, by omega⟩

end Cert.Spec

end
-- ==== Proof.LibMatProduct.lean ====
/-
  The row-by-column product of two matrices over the extended reals, as one function of the two arrays index by index,
  and the three places it is met: the host's dot_general at the plain dimension numbers (rows by contraction, times
  contraction by columns); a matrix unit's product accumulated into a zero splat; and a product of two BLOCKS (a band of
  rows of the left matrix, a band of columns of the right one), which is the corresponding block of the whole product
  because the contracted axis is not cut. Also: multiplying by a transposed matrix is contracting with its columns.
-/
import Idealize.ShloMosaic.Lib.StackMember
import Idealize.ShloMosaic.Lib.ValueLayout

noncomputable section

namespace Cert.Lib.MatProduct

open Idealize.ShloMosaic Idealize.ShloMosaic.ValueIdx

variable {M K N : Nat}

/-- (l r)[a, b] is the sum over k of l[a, k] r[k, b]. -/
def matProd (l : (⟨2, ![M, K]⟩ : Shape).Idx → EReal) (r : (⟨2, ![K, N]⟩ : Shape).Idx → EReal) :
    (⟨2, ![M, N]⟩ : Shape).Idx → EReal :=
  fun i => ∑ k : Fin K, l (ix2 ⟨(i 0).val, idx2_lt0 i⟩ k) * r (ix2 k ⟨(i 1).val, idx2_lt1 i⟩)

theorem matProd_ix2 (l : (⟨2, ![M, K]⟩ : Shape).Idx → EReal) (r : (⟨2, ![K, N]⟩ : Shape).Idx → EReal) (a : Fin M) (b : Fin N) :
    matProd l r (ix2 a b) = ∑ k : Fin K, l (ix2 a k) * r (ix2 k b) := rfl

/-- The host's plain dot_general, at the ideal values, is the product. -/
theorem dotGeneral_plain_eq {φ₁ φ₂ : FTy} (prec : Option ContractPrecision) (A : FVec Ideal ⟨2, ![M, K]⟩ φ₁)
    (B : FVec Ideal ⟨2, ![K, N]⟩ φ₂) : Host.dotGeneral (DotDims.plain M K N) prec A B = matProd A B := by
  funext i
  obtain ⟨a, b, rfl⟩ : ∃ (a : Fin M) (b : Fin N), i = ix2 a b := ⟨i 0, i 1, eq_ix2 i⟩
  rw [StackMember.dotGeneral_plain_apply, matProd_ix2]

/-- A matrix unit's plain product into the zero splat, at the ideal values, is the product. -/
theorem matmul_plain_zero_eq {φ₁ φ₂ : FTy} (prec : Option ContractPrecision) (A : FVec Ideal ⟨2, ![M, K]⟩ φ₁)
    (B : FVec Ideal ⟨2, ![K, N]⟩ φ₂) :
    matmul (DotDims.plain M K N) prec A B (constant ⟨2, ![M, N]⟩ .f32 0x00000000#32) = matProd A B := by
  rw [matmul_zero_eq_dotGeneral, dotGeneral_plain_eq]

/-- A band of rows times a band of columns is the block of the whole product: if the left block's row p is row a of l and
    the right block's column q is column b of r, entry (p, q) of the blocks' product is entry (a, b) of l r. -/
theorem matProd_block {M' N' : Nat} (l : (⟨2, ![M, K]⟩ : Shape).Idx → EReal) (r : (⟨2, ![K, N]⟩ : Shape).Idx → EReal)
    (l' : (⟨2, ![M', K]⟩ : Shape).Idx → EReal) (r' : (⟨2, ![K, N']⟩ : Shape).Idx → EReal)
    (p : Fin M') (q : Fin N') (a : Fin M) (b : Fin N)
    (hl : ∀ k : Fin K, l' (ix2 p k) = l (ix2 a k)) (hr : ∀ k : Fin K, r' (ix2 k q) = r (ix2 k b)) :
    matProd l' r' (ix2 p q) = matProd l r (ix2 a b) := by
  rw [matProd_ix2, matProd_ix2]
  exact Finset.sum_congr rfl fun k _ => by rw [hl k, hr k]

/-- The same at any two indices: the blocks' product at j is the whole product at i as soon as row (j 0) of the left
    block is row (i 0) of l and column (j 1) of the right block is column (i 1) of r. -/
theorem matProd_block_idx {M' N' : Nat} (l : (⟨2, ![M, K]⟩ : Shape).Idx → EReal) (r : (⟨2, ![K, N]⟩ : Shape).Idx → EReal)
    (l' : (⟨2, ![M', K]⟩ : Shape).Idx → EReal) (r' : (⟨2, ![K, N']⟩ : Shape).Idx → EReal)
    (j : (⟨2, ![M', N']⟩ : Shape).Idx) (i : (⟨2, ![M, N]⟩ : Shape).Idx)
    (hl : ∀ k : Fin K, l' (ix2 ⟨(j 0).val, idx2_lt0 j⟩ k) = l (ix2 ⟨(i 0).val, idx2_lt0 i⟩ k))
    (hr : ∀ k : Fin K, r' (ix2 k ⟨(j 1).val, idx2_lt1 j⟩) = r (ix2 k ⟨(i 1).val, idx2_lt1 i⟩)) :
    matProd l' r' j = matProd l r i := by
  unfold matProd
  exact Finset.sum_congr rfl fun k _ => by rw [hl k, hr k]

/-- Two right factors that are each other's transposes entry by entry give the same product. -/
theorem matProd_congr_right (l : (⟨2, ![M, K]⟩ : Shape).Idx → EReal) (r r' : (⟨2, ![K, N]⟩ : Shape).Idx → EReal)
    (h : ∀ (k : Fin K) (b : Fin N), r (ix2 k b) = r' (ix2 k b)) : matProd l r = matProd l r' := by
  funext i
  obtain ⟨a, b, rfl⟩ : ∃ (a : Fin M) (b : Fin N), i = ix2 a b := ⟨i 0, i 1, eq_ix2 i⟩
  rw [matProd_ix2, matProd_ix2]
  exact Finset.sum_congr rfl fun k _ => by rw [h k b]

end Cert.Lib.MatProduct

end
-- ==== Proof.KernelPayload.lean ====
/-
  What each kernel body stores, read at one entry, over the extended reals.
  The edge body: entry (p, j) of its block is the projected feature — row p of the attribute block against column j of
  the transposed projection, plus bias j —, times the cutoff of edge p's length, times the sum over the 128 table rows v
  of the 0/1 weight of v for edge p's atomic number against entry (v, j) of the padded table.
  The node body: entry (p, j) is the sum over k of (the 0/1-weighted sum of the padded table's column k) against entry
  (k, j) of the first weight block, plus the sum over k of the aggregate's (p, k) against the second weight block's
  (k, j), plus bias j. A change of float format is the identity here, and a product accumulated into zero is the product.
-/
import proofs.«410608_j59622736003308_3_alg».proof.Proof.Gen.KernelIdeal.Skeleton
import proofs.«410608_j59622736003308_3_alg».proof.Proof.Spec
import proofs.«410608_j59622736003308_3_alg».proof.Proof.LibMatProduct
import Idealize.ShloMosaic.Lib.KernelVsHost
import Idealize.ShloMosaic.Lib.ValueLayout
import Idealize.ShloMosaic.Lib.Pipeline.Value

noncomputable section

namespace Cert.KernelIdeal.Payload

open Cert.KernelIdeal Cert.KernelIdeal.Gen Idealize.ShloMosaic Idealize.ShloMosaic.ValueIdx Cert.Spec Cert.Lib.MatProduct

/-- A column laid along the 128 lanes reads, at (p, j), the column at p. -/
theorem bcast_col {α : Type} (x : S5000x1.Idx → α) (h : S5000x1.Broadcasts S5000x128) (p : Fin 5000) (j : Fin 128) :
    broadcastTo S5000x128 x h (ix2 p j) = x (ix2 p 0) := by
  refine broadcastTo_apply x h (ix2 p j) (ix2 p 0) (fun a => ?_)
  match a with
  | ⟨0, _⟩ => rfl
  | ⟨1, _⟩ => rfl

/-- A row laid down the 5000 sublanes reads, at (p, j), the row at j. -/
theorem bcast_row {α : Type} (x : S1x128.Idx → α) (h : S1x128.Broadcasts S5000x128) (p : Fin 5000) (j : Fin 128) :
    broadcastTo S5000x128 x h (ix2 p j) = x (ix2 0 j) := by
  refine broadcastTo_apply x h (ix2 p j) (ix2 0 j) (fun a => ?_)
  match a with
  | ⟨0, _⟩ => rfl
  | ⟨1, _⟩ => rfl

/-- The lane number along axis 1 at (p, v) is v. -/
theorem iota_lane (p : Fin 5000) (v : Fin 128) :
    iota .tc S5000x128 32 [1] iota_S5000x128_d1_w32 (ix2 p v) = BitVec.ofNat 32 v.val := by
  show BitVec.ofNat 32 (0 * 128 + v.val) = _
  rw [Nat.zero_mul, Nat.zero_add]

/-- The 0/1 matrix of the body: at (p, v), the weight of table row v for the word of row p. -/
theorem onehot_apply (zc : S5000x1.Idx → BitVec 32) (p : Fin 5000) (v : Fin 128) :
    (sitofp .f32 (extui 32 (cmpi .eq (broadcastTo S5000x128 (shapeCast S5000x1 zc shapeCasts_S5000x1_S5000x1) broadcasts_S5000x1_S5000x128)
        (iota .tc S5000x128 32 [1] iota_S5000x128_d1_w32)) natLt_1_32) : FVec Ideal S5000x128 .f32) (ix2 p v)
      = oh (zc (ix2 p 0)) v := by
  show ((((IntOp.cmpi .eq (broadcastTo S5000x128 (shapeCast S5000x1 zc shapeCasts_S5000x1_S5000x1) broadcasts_S5000x1_S5000x128 (ix2 p v))
      (iota .tc S5000x128 32 [1] iota_S5000x128_d1_w32 (ix2 p v))).setWidth 32).toInt : ℝ) : EReal) = _
  rw [bcast_col, shapeCast_self, iota_lane]
  rfl

/-- A product of a band of rows with a matrix, the formats changed on the way in, accumulated into zero, at (p, j). -/
theorem proj_apply (x0 : Vec Ideal S5000x64 .f32) (x4 : Vec Ideal S64x128 .f32) (p : Fin 5000) (j : Fin 128) :
    matmul (F := Ideal) dot_S5000x64_S64x128_S5000x128_1_0_0_1_n_n none (truncf (F := Ideal) .bf16 x0 bitsLt_bf16_f32)
        (truncf (F := Ideal) .bf16 (shapeCast S64x128 x4 shapeCasts_S64x128_S64x128) bitsLt_bf16_f32) (constant S5000x128 .f32 0x00000000#32) (ix2 p j)
      = ∑ k : Fin 64, x0 (ix2 p k) * x4 (ix2 k j) := by
  rw [shapeCast_self]
  show matmul (F := Ideal) (DotDims.plain 5000 64 128) none (φ₁ := .bf16) (φ₂ := .bf16) x0 x4 (constant ⟨2, ![5000, 128]⟩ .f32 0x00000000#32) (ix2 p j) = _
  rw [matmul_plain_zero_eq, matProd_ix2]

/-- The 0/1 matrix against a 128-row table, accumulated into zero, at (p, j): the weighted sum of the table's column j. -/
theorem lookup_apply (zc : S5000x1.Idx → BitVec 32) (x3 : Vec Ideal S128x128 .f32) (prec : Option ContractPrecision) (p : Fin 5000) (j : Fin 128) :
    matmul (F := Ideal) (φ₂ := .f32) dot_S5000x128_S128x128_S5000x128_1_0_0_1_n_n prec
        (sitofp .f32 (extui 32 (cmpi .eq (broadcastTo S5000x128 (shapeCast S5000x1 zc shapeCasts_S5000x1_S5000x1) broadcasts_S5000x1_S5000x128)
          (iota .tc S5000x128 32 [1] iota_S5000x128_d1_w32)) natLt_1_32) : FVec Ideal S5000x128 .f32)
        x3 (constant S5000x128 .f32 0x00000000#32) (ix2 p j)
      = ∑ v : Fin 128, oh (zc (ix2 p 0)) v * x3 (ix2 v j) := by
  show matmul (F := Ideal) (DotDims.plain 5000 128 128) prec (φ₁ := .f32) (φ₂ := .f32) _ x3 (constant ⟨2, ![5000, 128]⟩ .f32 0x00000000#32) (ix2 p j) = _
  rw [matmul_plain_zero_eq, matProd_ix2]
  exact Finset.sum_congr rfl fun v _ => by rw [onehot_apply]

/-- The cutoff column laid along the lanes, at (p, j): the kernel's cutoff of edge p's length. -/
theorem cut_apply (x1 : Vec Ideal S5000x1 .f32) (p : Fin 5000) (j : Fin 128) :
    broadcastTo S5000x128
        (mulf (mulf (broadcast S5000x1 (FloatOps.ofBits (F := Ideal) .f32 0x3F000000#32))
            (addf (cos (mulf (broadcast S5000x1 (FloatOps.ofBits (F := Ideal) .f32 0x3F20D97C#32)) (shapeCast S5000x1 x1 shapeCasts_S5000x1_S5000x1)))
              (broadcast S5000x1 (FloatOps.ofBits (F := Ideal) .f32 0x3F800000#32))))
          (sitofp .f32 (extui 32 (cmpf .olt (shapeCast S5000x1 x1 shapeCasts_S5000x1_S5000x1)
            (broadcast S5000x1 (FloatOps.ofBits (F := Ideal) .f32 0x40A00000#32))) natLt_1_32)))
        broadcasts_S5000x1_S5000x128 (ix2 p j)
      = cutoffK (x1 (ix2 p 0)) := by
  rw [bcast_col, shapeCast_self]
  rfl

/-- THE EDGE BODY's stored value at (p, j). -/
theorem k0_apply (x0 : Vec Ideal S5000x64 .f32) (x1 : Vec Ideal S5000x1 .f32) (x2 : Vec Ideal S5000x1 .i32) (x3 : Vec Ideal S128x128 .f32)
    (x4 : Vec Ideal S64x128 .f32) (x5 : Vec Ideal S1x128 .f32) (p : Fin 5000) (j : Fin 128) :
    k0_pay1 (F := Ideal) x0 x1 x2 x3 x4 x5 (ix2 p j)
      = (((∑ k : Fin 64, x0 (ix2 p k) * x4 (ix2 k j)) + x5 (ix2 0 j)) * cutoffK (x1 (ix2 p 0)))
          * (∑ v : Fin 128, oh (x2 (ix2 p 0)) v * x3 (ix2 v j)) := by
  unfold k0_pay1
  dsimp only
  refine congrArg₂ (· * ·) (congrArg₂ (· * ·) (congrArg₂ (· + ·) (proj_apply x0 x4 p j) ?_) (cut_apply x1 p j)) ?_
  · rw [bcast_row, shapeCast_self]
  · rw [shapeCast_self (s := S128x128)]
    exact lookup_apply x2 x3 _ p j

/-- A 5000-row band times a 128 × 128 matrix, accumulated into zero, at (p, j), whatever formats the factors carry. -/
theorem mm_apply {φ₁ φ₂ : FTy} (prec : Option ContractPrecision) (A : FVec Ideal S5000x128 φ₁) (B : FVec Ideal S128x128 φ₂) (p : Fin 5000) (j : Fin 128) :
    matmul (F := Ideal) dot_S5000x128_S128x128_S5000x128_1_0_0_1_n_n prec A B (constant S5000x128 .f32 0x00000000#32) (ix2 p j)
      = ∑ k : Fin 128, A (ix2 p k) * B (ix2 k j) := by
  show matmul (F := Ideal) (DotDims.plain 5000 128 128) prec A B (constant ⟨2, ![5000, 128]⟩ .f32 0x00000000#32) (ix2 p j) = _
  rw [matmul_plain_zero_eq, matProd_ix2]

/-- THE NODE BODY's stored value at (p, j). -/
theorem k1_apply (x0 : Vec Ideal S5000x1 .i32) (x1 : Vec Ideal S128x128 .f32) (x2 : Vec Ideal S5000x128 .f32) (x3 : Vec Ideal S128x128 .f32)
    (x4 : Vec Ideal S128x128 .f32) (x5 : Vec Ideal S1x128 .f32) (p : Fin 5000) (j : Fin 128) :
    k1_pay1 (F := Ideal) x0 x1 x2 x3 x4 x5 (ix2 p j)
      = ((∑ k : Fin 128, (∑ v : Fin 128, oh (x0 (ix2 p 0)) v * x1 (ix2 v k)) * x3 (ix2 k j))
          + (∑ k : Fin 128, x2 (ix2 p k) * x4 (ix2 k j))) + x5 (ix2 0 j) := by
  unfold k1_pay1
  dsimp only
  refine congrArg₂ (· + ·) (congrArg₂ (· + ·) ?_ ?_) ?_
  · rw [shapeCast_self (s := S128x128), shapeCast_self (s := S128x128)]
    refine (mm_apply (φ₁ := .bf16) (φ₂ := .bf16) none _ x3 p j).trans ?_
    refine Finset.sum_congr rfl fun k _ => congrArg (· * x3 (ix2 k j)) ?_
    exact lookup_apply x0 x1 none p k
  · rw [shapeCast_self (s := S128x128), shapeCast_self (s := S5000x128)]
    exact mm_apply (φ₁ := .bf16) (φ₂ := .bf16) none x2 x4 p j
  · rw [bcast_row, shapeCast_self]

end Cert.KernelIdeal.Payload

end
-- ==== Proof.LibPadScatter.lean ====
/-
  Writing a block of rows at the top of a matrix on the host, read at an index. What zeros((N, C)).at[:M].set(upd) of
  an update upd : [M, C] lowers to: a scatter whose body returns the update, with one start index vector [0] (scatter
  indices of shape [1], index vector axis 0), both update axes window axes, no inserted window axis, and the start index
  mapped to operand axis 0. Update element (r, c) lands at operand element (0 + r, 0 + c) when that is inside the
  operand, and distinct update elements land at distinct operand elements, so the result at (r, c), r < M, is upd (r, c)
  whatever the operand held there and in whatever order the updates are applied.
-/
import Idealize.ShloMosaic.Lib.ValueIdx

noncomputable section

namespace Cert.Lib.PadScatter

open Idealize.ShloMosaic Idealize.ShloMosaic.ValueIdx

variable {α : Type}

section Fold

variable {ι κ : Type} (step : (ι → α) → κ → ι → α) (g : κ → Option ι) (u : κ → α)

/-- A left fold of steps, each of which changes an array only at the position its update names: a position that no
    update of the list names keeps its starting value. -/
theorem foldl_unchanged (hmiss : ∀ r n i, g n ≠ some i → step r n i = r i)
    (l : List κ) (r : ι → α) (i : ι) (h : ∀ n ∈ l, g n ≠ some i) : l.foldl step r i = r i := by
  induction l generalizing r with
  | nil => rfl
  | cons n l ih =>
    rw [List.foldl_cons, ih (step r n) (fun n' hn' => h n' (List.mem_cons_of_mem _ hn')),
      hmiss r n i (h n List.mem_cons_self)]

/-- A left fold of steps, each of which overwrites the position its update names with the update's value and changes no
    other: a position that some update of the list names, all the updates naming it carrying one value v, ends at v.
    (No two updates need name different positions.) -/
theorem foldl_hit (hhit : ∀ r n i, g n = some i → step r n i = u n)
    (hmiss : ∀ r n i, g n ≠ some i → step r n i = r i)
    (l : List κ) (r : ι → α) (i : ι) (v : α) (hex : ∃ n ∈ l, g n = some i)
    (hall : ∀ n ∈ l, g n = some i → u n = v) : l.foldl step r i = v := by
  induction l generalizing r with
  | nil => obtain ⟨n, hn, _⟩ := hex; exact absurd hn List.not_mem_nil
  | cons n l ih =>
    rw [List.foldl_cons]
    by_cases hl : ∃ n' ∈ l, g n' = some i
    · exact ih (step r n) hl (fun n' hn' => hall n' (List.mem_cons_of_mem _ hn'))
    · have hl' : ∀ n' ∈ l, g n' ≠ some i := fun n' hn' hg => hl ⟨n', hn', hg⟩
      rw [foldl_unchanged step g hmiss l (step r n) i hl']
      obtain ⟨n', hn', hg⟩ := hex
      rcases List.mem_cons.mp hn' with rfl | hn'
      · rw [hhit r n' i hg]; exact hall n' List.mem_cons_self hg
      · exact absurd hg (hl' n' hn')

end Fold

section General

variable {s si u : Shape} {w : Nat} (d : ScatterDims s si u)

/-- An update index that lands inside the operand lands, on every axis, at its start plus its window coordinate. -/
theorem resultIdx_val (j : u.Idx) (idx : IVec si w) (i : s.Idx) (h : d.resultIdx? j idx = some i) (a : Fin s.rank) :
    ((i a).val : Int) = d.start j idx a + d.window j a := by
  unfold ScatterDims.resultIdx? at h
  split at h
  · rename_i hb
    injection h with h
    subst h
    exact Int.toNat_of_nonneg (hb a).1
  · exact absurd h (by simp)

/-- An operand index that is, on every axis, an update index's start plus its window coordinate is where that update
    index lands. -/
theorem resultIdx_of_val (j : u.Idx) (idx : IVec si w) (i : s.Idx)
    (h : ∀ a, ((i a).val : Int) = d.start j idx a + d.window j a) : d.resultIdx? j idx = some i := by
  unfold ScatterDims.resultIdx?
  rw [dif_pos (fun a => ⟨by rw [← h a]; exact Int.natCast_nonneg _, by rw [← h a]; exact_mod_cast (i a).isLt⟩)]
  congr 1
  funext a
  refine Fin.ext ?_
  show (d.start j idx a + d.window j a).toNat = (i a).val
  rw [← h a]; rfl

/-- A scatter whose body returns the update, read at an operand index i at which some update index j lands, every update
    index landing at i carrying the value of j: the result is that value. -/
theorem scatter_set_apply (x : s.Idx → α) (idx : IVec si w) (upd : u.Idx → α) (i : s.Idx) (j : u.Idx)
    (hj : d.resultIdx? j idx = some i) (hall : ∀ j', d.resultIdx? j' idx = some i → upd j' = upd j) :
    Host.scatter d (fun _ b => b) x idx upd i = upd j := by
  unfold Host.scatter
  refine foldl_hit _ (fun n => d.resultIdx? (u.rowMajor.symm n) idx) (fun n => upd (u.rowMajor.symm n)) ?_ ?_ _ x i
    (upd j) ⟨u.rowMajor j, List.mem_finRange _, by rw [Equiv.symm_apply_apply]; exact hj⟩ (fun n _ hn => hall _ hn)
  · intro r n i' hg
    dsimp only at hg ⊢
    rw [hg]
    exact if_pos rfl
  · intro r n i' hg
    dsimp only at hg ⊢
    cases hm : d.resultIdx? (u.rowMajor.symm n) idx with
    | none => rfl
    | some i0 => exact if_neg (fun hi => hg (by rw [hm, hi]))

end General

/-- Those dimension numbers for an operand [N, C], one start index vector of one component, and updates [M, C]; their
    conditions are decided on a program's literal shapes. -/
abbrev padDims (N M C : Nat) (wf : ScatterDims.WF ⟨2, ![N, C]⟩ ⟨1, ![1]⟩ ⟨2, ![M, C]⟩ [0, 1] [] [0] 0) :
    ScatterDims ⟨2, ![N, C]⟩ ⟨1, ![1]⟩ ⟨2, ![M, C]⟩ where
  updateWindowDims := [0, 1]
  insertedWindowDims := []
  scatterDimsToOperandDims := [0]
  indexVectorDim := 0
  wf := wf

section Coordinates

variable {N M C w : Nat} (wf : ScatterDims.WF ⟨2, ![N, C]⟩ ⟨1, ![1]⟩ ⟨2, ![M, C]⟩ [0, 1] [] [0] 0)
  (idx : IVec ⟨1, ![1]⟩ w) (hidx : ∀ i, (idx i).toInt = 0) (j : (⟨2, ![M, C]⟩ : Shape).Idx)

include hidx in
/-- The window starts at 0 on both operand axes: on the row axis the start index, which is 0, on the column axis no
    start index is mapped. -/
theorem start_eq_zero (a : Fin 2) : (padDims N M C wf).start j idx a = 0 := by
  unfold ScatterDims.start
  split
  · exact hidx _
  · rfl

/-- On the operand's row axis the window coordinate is the update's row. -/
theorem window_row : (padDims N M C wf).window j (0 : Fin 2) = (j 0).val := rfl

/-- On the operand's column axis the window coordinate is the update's column. -/
theorem window_col : (padDims N M C wf).window j (1 : Fin 2) = (j 1).val := rfl

end Coordinates

/-- The block write read inside the block: at (r, c) with r < M (and r < N) it is upd (r, c). -/
theorem padScatter_apply {N M C w : Nat} (wf : ScatterDims.WF ⟨2, ![N, C]⟩ ⟨1, ![1]⟩ ⟨2, ![M, C]⟩ [0, 1] [] [0] 0)
    (x : (⟨2, ![N, C]⟩ : Shape).Idx → α) (idx : IVec ⟨1, ![1]⟩ w) (hidx : ∀ i, (idx i).toInt = 0)
    (upd : (⟨2, ![M, C]⟩ : Shape).Idx → α) (r : Fin M) (hr : r.val < N) (c : Fin C) :
    Host.scatter (padDims N M C wf) (fun _ b => b) x idx upd (ix2 ⟨r.val, hr⟩ c) = upd (ix2 r c) := by
  refine scatter_set_apply (padDims N M C wf) x idx upd _ (ix2 r c) ?_ ?_
  · refine resultIdx_of_val _ _ _ _ (fun a => ?_)
    rw [start_eq_zero wf idx hidx]
    match a with
    | ⟨0, _⟩ => exact (Int.zero_add _).symm
    | ⟨1, _⟩ => exact (Int.zero_add _).symm
  · intro j' hj'
    obtain ⟨a, b, rfl⟩ : ∃ a b, j' = ix2 a b := ⟨_, _, eq_ix2 j'⟩
    have h0 := resultIdx_val _ _ _ _ hj' (0 : Fin 2)
    have h1 := resultIdx_val _ _ _ _ hj' (1 : Fin 2)
    rw [start_eq_zero wf idx hidx, window_row, Int.zero_add] at h0
    rw [start_eq_zero wf idx hidx, window_col, Int.zero_add] at h1
    obtain rfl : a = r := Fin.ext (Int.ofNat_inj.mp h0).symm
    obtain rfl : b = c := Fin.ext (Int.ofNat_inj.mp h1).symm
    rfl

end Cert.Lib.PadScatter

end
-- ==== Proof.KernelHostA.lean ====
/-
  UNTRUSTED — WHAT THE FIRST REGION FINDS. Before the first region the host prepares its input arrays from the
  arguments: a column of a vector (a reshape), a transposed matrix, a row of a vector, a table padded with zero rows
  below its own, and a lookup of one integer argument at the indices the other holds. Each array is read here at an
  index, as a function of the arguments the launch memory holds.
-/
import proofs.«410608_j59622736003308_3_alg».proof.Proof.Gen.KernelIdeal.Frame
import proofs.«410608_j59622736003308_3_alg».proof.Proof.Spec
import proofs.«410608_j59622736003308_3_alg».proof.Proof.LibPadScatter
import Idealize.ShloMosaic.Lib.StableHlo.Run
import Idealize.ShloMosaic.Lib.StableHlo.Predicate
import Idealize.ShloMosaic.Lib.Pipeline.Value
import Idealize.ShloMosaic.Lib.ValueIdx

set_option maxRecDepth 16384

noncomputable section

namespace Cert.KernelIdeal.HostA

open Idealize.ShloMosaic Idealize.ShloMosaic.TcCoe Idealize.ShloMosaic.ValueIdx
open Idealize.SL.Sem
open Cert.KernelIdeal Cert.KernelIdeal.Gen

variable {F : FTy → Type} [FloatOps F]
variable (m : (ℓ : Loc nD τ sig) → Buf (Elt F) ℓ) (ρ : Dev nD → PrngReg) (c : Dev nD)

/-- A stretch of host operations leaves alone a buffer none of them writes. -/
macro "stretch_skips" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## The arguments, as the third stretch finds them: no earlier operation writes one -/

theorem W2_arg (b : Ref sig .tc)
    (h2 : W2 m ρ c (Proc.devRef .tc b) = W1 m ρ c (Proc.devRef .tc b))
    (h1 : W1 m ρ c (Proc.devRef .tc b) = W0 m ρ c (Proc.devRef .tc b)) :
    W2 m ρ c (Proc.devRef .tc b) = m ((c : Thread nD τ).loc b) := h2.trans h1

theorem W2_main_arg0 : W2 m ρ c (Proc.devRef .tc main_arg0) = m ((c : Thread nD τ).loc main_arg0) :=
  W2_arg m ρ c main_arg0 (by stretch_skips hostOps0_1) (by stretch_skips hostOps0)
theorem W2_main_arg2 : W2 m ρ c (Proc.devRef .tc main_arg2) = m ((c : Thread nD τ).loc main_arg2) :=
  W2_arg m ρ c main_arg2 (by stretch_skips hostOps0_1) (by stretch_skips hostOps0)
theorem W2_main_arg3 : W2 m ρ c (Proc.devRef .tc main_arg3) = m ((c : Thread nD τ).loc main_arg3) :=
  W2_arg m ρ c main_arg3 (by stretch_skips hostOps0_1) (by stretch_skips hostOps0)
theorem W2_main_arg5 : W2 m ρ c (Proc.devRef .tc main_arg5) = m ((c : Thread nD τ).loc main_arg5) :=
  W2_arg m ρ c main_arg5 (by stretch_skips hostOps0_1) (by stretch_skips hostOps0)
theorem W2_main_arg6 : W2 m ρ c (Proc.devRef .tc main_arg6) = m ((c : Thread nD τ).loc main_arg6) :=
  W2_arg m ρ c main_arg6 (by stretch_skips hostOps0_1) (by stretch_skips hostOps0)
theorem W2_main_arg7 : W2 m ρ c (Proc.devRef .tc main_arg7) = m ((c : Thread nD τ).loc main_arg7) :=
  W2_arg m ρ c main_arg7 (by stretch_skips hostOps0_1) (by stretch_skips hostOps0)

/-! ## The four arrays one operation makes of an argument -/

/-- The first window's array is an argument, which no host operation writes. -/
theorem V3_arg3 : V3 m ρ c main_arg3 = m ((c : Thread nD τ).loc main_arg3) :=
  (show W3 m ρ c (Proc.devRef .tc main_arg3) = W2 m ρ c (Proc.devRef .tc main_arg3) by stretch_skips hostOps0_2).trans
    (W2_main_arg3 m ρ c)

/-- The lengths as a column: the argument vector reshaped. -/
theorem V3_v15_eq : (V3 m ρ c main_v15 : S800000x1.Idx → Elt F .f32)
    = shapeCast S800000x1 (m ((c : Thread nD τ).loc main_arg2) : S800000.Idx → Elt F .f32) shapeCasts_S800000_S800000x1 := by
  rw [← W2_main_arg2 m ρ c]
  show StableHlo.after hostOps0_2 (W2 m ρ c) (Proc.devRef .tc main_v15) = _
  after_results
  all_goals rfl

theorem V3_v15 (e : Fin 800000) :
    (V3 m ρ c main_v15 : S800000x1.Idx → Elt F .f32) (ix2 e (0 : Fin 1)) = (m ((c : Thread nD τ).loc main_arg2) : S800000.Idx → Elt F .f32) (ix1 e) := by
  rw [V3_v15_eq]
  exact shapeCast_apply _ shapeCasts_S800000_S800000x1 (ix2 e (0 : Fin 1)) (ix1 e)
    (by rewrite [Shape.rowMajor_val_two, Shape.rowMajor_val_one]; show e.val = e.val * 1 + 0; omega)

/-- The projection matrix transposed. -/
theorem V3_v13_eq : (V3 m ρ c main_v13 : S64x128.Idx → Elt F .f32)
    = transpose S64x128 [1, 0] (m ((c : Thread nD τ).loc main_arg6) : S128x64.Idx → Elt F .f32) transposes_S128x64_S64x128_1_0 := by
  rw [← W2_main_arg6 m ρ c]
  show StableHlo.after hostOps0_2 (W2 m ρ c) (Proc.devRef .tc main_v13) = _
  after_results
  all_goals rfl

theorem V3_v13 (k : Fin 64) (j : Fin 128) :
    (V3 m ρ c main_v13 : S64x128.Idx → Elt F .f32) (ix2 k j) = (m ((c : Thread nD τ).loc main_arg6) : S128x64.Idx → Elt F .f32) (ix2 j k) := by
  rw [V3_v13_eq]
  exact transpose_apply _ _ transposes_S128x64_S64x128_1_0 (ix2 k j) (ix2 j k)
    (fun b => match b with | ⟨0, _⟩ => rfl | ⟨1, _⟩ => rfl)

/-- The projection's bias as a row: the argument vector reshaped. -/
theorem V3_v14_eq : (V3 m ρ c main_v14 : S1x128.Idx → Elt F .f32)
    = shapeCast S1x128 (m ((c : Thread nD τ).loc main_arg7) : S128.Idx → Elt F .f32) shapeCasts_S128_S1x128 := by
  rw [← W2_main_arg7 m ρ c]
  show StableHlo.after hostOps0_2 (W2 m ρ c) (Proc.devRef .tc main_v14) = _
  after_results
  all_goals rfl

theorem V3_v14 (j : Fin 128) :
    (V3 m ρ c main_v14 : S1x128.Idx → Elt F .f32) (ix2 (0 : Fin 1) j) = (m ((c : Thread nD τ).loc main_arg7) : S128.Idx → Elt F .f32) (ix1 j) := by
  rw [V3_v14_eq]
  exact shapeCast_apply _ shapeCasts_S128_S1x128 (ix2 (0 : Fin 1) j) (ix1 j)
    (by rewrite [Shape.rowMajor_val_two, Shape.rowMajor_val_one]; show j.val = 0 * 128 + j.val; omega)

/-! ## The padded table: the argument's 101 rows written over the top of 128 rows of zeros -/

theorem V3_v12_eq : (V3 m ρ c main_v12 : S128x128.Idx → Elt F .f32)
    = Host.scatter scatter_S128x128_S1_S101x128_01_n_0_0 (fun _ b => b)
        (broadcastInDim S128x128 ![] bcast_S_S128x128 (constant (F := F) S_ .f32 0x00000000#32))
        (broadcastInDim S1 ![] bcast_S_S1 (constantI S_ 32 0#32))
        (m ((c : Thread nD τ).loc main_arg5) : S101x128.Idx → Elt F .f32) := by
  rw [← W2_main_arg5 m ρ c]
  show StableHlo.after hostOps0_2 (W2 m ρ c) (Proc.devRef .tc main_v12) = _
  after_results
  all_goals rfl

/-- Row v of the padded table, v one of the argument's rows, is the argument's row v. -/
theorem V3_v12 (v : Fin 101) (j : Fin 128) :
    (V3 m ρ c main_v12 : S128x128.Idx → Elt F .f32) (ix2 (⟨v.val, by omega⟩ : Fin 128) j)
      = (m ((c : Thread nD τ).loc main_arg5) : S101x128.Idx → Elt F .f32) (ix2 v j) := by
  rw [V3_v12_eq]
  exact Cert.Lib.PadScatter.padScatter_apply (N := 128) (M := 101) (C := 128) scatter_S128x128_S1_S101x128_01_n_0_0_wf
    _ _ (fun i => rfl) _ v (by omega) j

/-! ## The lookup: the first integer argument read at the indices row 1 of the second holds -/

/-- Contents moved to a typed reference's buffer type and back are the contents. -/
theorem ofBuf_toBuf {T : BufTy} (x : StableHlo.TRef sig T) (v : T.Contents (Elt F)) : x.ofBuf (x.toBuf v) = v := by
  obtain ⟨r, rfl, h1, h2⟩ := x
  rfl

/-- The index moved into range from below: an index below zero is moved up by the table's length. -/
def tMoved (col : IVec S800000 32) : IVec S800000 32 :=
  select (cmpi .slt col (broadcastInDim S800000 ![] bcast_S_S800000 (constantI S_ 32 0#32)))
    (addi col (broadcastInDim S800000 ![] bcast_S_S800000 (constantI S_ 32 50000#32))) col

/-- The moved indices as a column of start indices. -/
def tStart (col : IVec S800000 32) : IVec S800000x1 32 :=
  broadcastInDim S800000x1 ![0] bcast_S800000_S800000x1_0 (tMoved col)

/-- Is the start index inside the table: at least 0 and at most 49999? -/
def tInside (col : IVec S800000 32) : IVec S800000x1 1 :=
  andi (cmpi .sge (tStart col) (broadcastInDim S800000x1 ![] bcast_S_S800000x1 (constantI S_ 32 0#32)))
    (cmpi .sle (tStart col) (broadcastInDim S800000x1 ![0, 1] bcast_S1x1_S800000x1_0_1
      (broadcastInDim S1x1 ![1] bcast_S1_S1x1_1 (constantI S1 32 49999#32))))

/-- The same over the one start index of each position. -/
def tOk (col : IVec S800000 32) : IVec S800000 1 :=
  Host.reduce IntOp.andi (tInside col) (constantI S_ 1 1#1) reducesTo_S800000x1_S800000_d1 h_S_

/-- The table read at the start indices. -/
def tRead (a0 : IVec S50000 32) (col : IVec S800000 32) : IVec S800000 32 :=
  Host.gather gather_S50000_S800000x1_S800000_n_0_n_n_0_1_1 a0 (tStart col)

/-- The lookup as the host spells it: the read where the start index is inside the table, the least integer elsewhere. -/
def takeTerm (a0 : IVec S50000 32) (col : IVec S800000 32) : IVec S800000 32 :=
  select (tOk col) (tRead a0 col) (broadcastInDim S800000 ![] bcast_S_S800000 (constantI S_ 32 2147483648#32))

/-- What the call leaves in its result buffer, over the contents it starts from. -/
theorem take_result (V : Valuation τ sig (Elt F)) :
    (StableHlo.after hostOps0_1 V (Proc.devRef .tc main_v5) : S800000.Idx → BitVec 32)
      = takeTerm (V (Proc.devRef .tc main_arg0)) (V (Proc.devRef .tc main_v4)) := by
  after_results_simp
  simp only [ofBuf_toBuf]
  refine eq_of_heq ((cast_heq _ _).trans (heq_of_eq ?_))
  unfold takeTerm tOk tRead
  congr 1

/-- A rank-1 index written two ways. -/
theorem ofFin_eq_ix1 {n : Nat} (k : Fin n) : Shape.Idx.ofFin k = ix1 k := by
  funext a
  obtain rfl : a = 0 := Subsingleton.elim _ _
  exact Fin.ext rfl

/-- Row p of a column written two ways. -/
theorem ixP_eq_ix2 {n : Nat} (p : Fin n) : StableHlo.Predicate.ixP p = ix2 p (0 : Fin 1) := by
  funext a
  match a with
  | ⟨0, _⟩ => rfl
  | ⟨1, _⟩ => rfl

/-- A fold by "and" from 1 over 1s is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    have e : IntOp.andi 1#1 (f a) = 1#1 := by rw [h a List.mem_cons_self]; decide
    rw [List.foldl_cons, e]
    exact foldl_andi_one f l fun n hn => h n (List.mem_cons_of_mem _ hn)

/-- A reduction by "and" from 1 is 1 at a result index every operand index reducing into which holds 1. -/
theorem reduce_andi_one {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, h.drop i = j → x i = 1#1) : Host.reduce IntOp.andi x init h hu j = 1#1 := by
  rw [Host.reduce_eq_foldl, hinit]
  exact foldl_andi_one x _ fun i hi => hx i (of_decide_eq_true (List.mem_filter.1 hi).2)

section Element

variable (a0 : IVec S50000 32) (col : IVec S800000 32) (e : Fin 800000)

/-- An index that is not below zero is not moved. -/
theorem tMoved_apply (h0 : 0 ≤ (col (ix1 e)).toInt) : tMoved col (ix1 e) = col (ix1 e) := by
  have hc : ¬IntOp.cmpi .slt (col (ix1 e)) (0#32) = 1#1 := by
    rw [IntOp.cmpi_slt]
    have z : (0#32 : BitVec 32).toInt = 0 := by decide
    omega
  show Scalar.select (IntOp.cmpi .slt (col (ix1 e)) (0#32)) _ _ = _
  rw [eq_zero_of_ne_one hc, select_zero]

/-- The start index of position e is the moved index of position e. -/
theorem tStart_apply : tStart col (ix2 e (0 : Fin 1)) = tMoved col (ix1 e) := by
  rw [← ixP_eq_ix2, ← ofFin_eq_ix1]
  exact StableHlo.Predicate.bcast_col1 bcast_S800000_S800000x1_0 (tMoved col) e

/-- An index inside the table passes the check. -/
theorem tOk_apply (h0 : 0 ≤ (col (ix1 e)).toInt) (h1 : (col (ix1 e)).toInt < 50000) : tOk col (ix1 e) = 1#1 := by
  refine reduce_andi_one _ _ _ _ _ rfl fun i hi => ?_
  obtain ⟨p, q, rfl⟩ : ∃ p q, i = ix2 p q := ⟨_, _, eq_ix2 i⟩
  have hp : p = e := Fin.ext (by
    have := congrArg (fun j : S800000.Idx => (j 0).val) hi
    exact this)
  obtain rfl : q = (0 : Fin 1) := Subsingleton.elim _ _
  subst hp
  show IntOp.andi (IntOp.cmpi .sge (tStart col (ix2 p (0 : Fin 1))) (0#32)) (IntOp.cmpi .sle (tStart col (ix2 p (0 : Fin 1))) (49999#32)) = 1#1
  rw [tStart_apply, tMoved_apply col p h0, IntOp.andi_eq_one, IntOp.cmpi_sge, IntOp.cmpi_sle]
  have z : (0#32 : BitVec 32).toInt = 0 := by decide
  have z' : (49999#32 : BitVec 32).toInt = 49999 := by decide
  omega

/-- The read at position e is the table at the start index, kept inside the table. -/
theorem tRead_apply : tRead a0 col (ix1 e)
    = a0 (ix1 (Cert.Spec.clampRow 50000 (by decide) (tMoved col (ix1 e)))) := by
  have hs : tStart col (StableHlo.Predicate.ixP e) = tMoved col (ix1 e) := by
    rw [ixP_eq_ix2]; exact tStart_apply col e
  have hg := StableHlo.Predicate.gather_take gather_S50000_S800000x1_S800000_n_0_n_n_0_1_1 rfl rfl rfl rfl a0 (tStart col) e
    (by decide)
  rw [ofFin_eq_ix1, ofFin_eq_ix1] at hg
  refine hg.trans (congrArg (fun k : Fin 50000 => a0 (ix1 k)) (Fin.ext ?_))
  show min (tStart col (StableHlo.Predicate.ixP e)).toInt.toNat (50000 - 1) = min (tMoved col (ix1 e)).toInt.toNat (50000 - 1)
  rw [hs]

/-- THE LOOKUP AT A POSITION whose index is inside the table: the table at that index. -/
theorem takeTerm_apply (h0 : 0 ≤ (col (ix1 e)).toInt) (h1 : (col (ix1 e)).toInt < 50000) :
    takeTerm a0 col (ix1 e) = a0 (ix1 (Cert.Spec.clampRow 50000 (by decide) (col (ix1 e)))) := by
  unfold takeTerm
  rw [select_apply, tOk_apply col e h0 h1, select_one, tRead_apply, tMoved_apply col e h0]

end Element

/-! ## The lookup's result as the first region finds it -/

/-- Row 1 of the second argument as a vector: what the first stretch leaves for the call. -/
theorem W1_v4_eq : (W1 m ρ c (Proc.devRef .tc main_v4) : S800000.Idx → BitVec 32)
    = shapeCast S800000 (extractStridedSlice S1x800000 ![1, 0]
        (m ((c : Thread nD τ).loc main_arg1) : S2x800000.Idx → BitVec 32) slices_S2x800000_S1x800000_1_0) shapeCasts_S1x800000_S800000 := by
  show StableHlo.after hostOps0 (W0 m ρ c) (Proc.devRef .tc main_v4) = _
  after_results
  all_goals rfl

/-- The reshape of row 1 of a [2, 800000] array, read at e, is the array at (1, e). -/
theorem col_apply (a1 : IVec S2x800000 32) (e : Fin 800000) :
    shapeCast S800000 (extractStridedSlice S1x800000 ![1, 0] a1 slices_S2x800000_S1x800000_1_0) shapeCasts_S1x800000_S800000 (ix1 e)
      = a1 (ix2 (1 : Fin 2) e) := by
  rw [shapeCast_apply _ shapeCasts_S1x800000_S800000 (ix1 e) (ix2 (0 : Fin 1) e)
    (by rewrite [Shape.rowMajor_val_two, Shape.rowMajor_val_one]; show 0 * 800000 + e.val = e.val; omega)]
  exact extractStridedSlice_apply ![1, 0] a1 slices_S2x800000_S1x800000_1_0 (ix2 (0 : Fin 1) e) (ix2 (1 : Fin 2) e)
    (fun a => match a with
      | ⟨0, _⟩ => by show 1 = 1 + 0; omega
      | ⟨1, _⟩ => by show e.val = 0 + e.val; omega)

theorem W1_main_arg0 : W1 m ρ c (Proc.devRef .tc main_arg0) = m ((c : Thread nD τ).loc main_arg0) := by
  show StableHlo.after hostOps0 (W0 m ρ c) (Proc.devRef .tc main_arg0) = W0 m ρ c (Proc.devRef .tc main_arg0)
  stretch_skips hostOps0

/-- The call's result: the lookup of the first argument at row 1 of the second. -/
theorem W2_v5_eq : (W2 m ρ c (Proc.devRef .tc main_v5) : S800000.Idx → BitVec 32)
    = takeTerm (m ((c : Thread nD τ).loc main_arg0)) (W1 m ρ c (Proc.devRef .tc main_v4)) := by
  have h := take_result (W1 m ρ c)
  rw [W1_main_arg0] at h
  exact h

/-- The third stretch reshapes the call's result into a column. -/
theorem reshape_v6 (V : Valuation τ sig (Elt F)) :
    (StableHlo.after hostOps0_2 V (Proc.devRef .tc main_v6) : S800000x1.Idx → BitVec 32)
      = shapeCast S800000x1 (V (Proc.devRef .tc main_v5) : S800000.Idx → BitVec 32) shapeCasts_S800000_S800000x1 := by
  after_results
  all_goals rfl

/-- THE LOOKUP AS THE FIRST REGION FINDS IT, a column: at a position e whose index is inside the table, the first
    argument at that index. -/
theorem V3_v6 (e : Fin 800000)
    (hcol : 0 ≤ ((m ((c : Thread nD τ).loc main_arg1) : S2x800000.Idx → BitVec 32) (ix2 (1 : Fin 2) e)).toInt
      ∧ ((m ((c : Thread nD τ).loc main_arg1) : S2x800000.Idx → BitVec 32) (ix2 (1 : Fin 2) e)).toInt < 50000) :
    (V3 m ρ c main_v6 : S800000x1.Idx → BitVec 32) (ix2 e (0 : Fin 1))
      = (m ((c : Thread nD τ).loc main_arg0) : S50000.Idx → BitVec 32)
          (ix1 (Cert.Spec.clampRow 50000 (by decide) ((m ((c : Thread nD τ).loc main_arg1) : S2x800000.Idx → BitVec 32) (ix2 (1 : Fin 2) e)))) := by
  have hc : (W1 m ρ c (Proc.devRef .tc main_v4) : S800000.Idx → BitVec 32) (ix1 e)
      = (m ((c : Thread nD τ).loc main_arg1) : S2x800000.Idx → BitVec 32) (ix2 (1 : Fin 2) e) := by
    rw [W1_v4_eq]; exact col_apply _ e
  have h6 : (V3 m ρ c main_v6 : S800000x1.Idx → BitVec 32)
      = shapeCast S800000x1 (W2 m ρ c (Proc.devRef .tc main_v5) : S800000.Idx → BitVec 32) shapeCasts_S800000_S800000x1 :=
    reshape_v6 (W2 m ρ c)
  rw [h6, shapeCast_apply _ shapeCasts_S800000_S800000x1 (ix2 e (0 : Fin 1)) (ix1 e)
    (by rewrite [Shape.rowMajor_val_two, Shape.rowMajor_val_one]; show e.val = e.val * 1 + 0; omega),
    W2_v5_eq, takeTerm_apply _ _ e (by rw [hc]; exact hcol.1) (by rw [hc]; exact hcol.2), hc]

end Cert.KernelIdeal.HostA

end
-- ==== Proof.KernelHostB.lean ====
/-
  Region 1's input arrays at its entry, as functions of the launched argument arrays and of region 0's output array.
  Between the launch and region 1 the program runs three stretches of host operations, region 0, and one more stretch.
  Each array region 1 reads is written by exactly one of these operations and by nothing after it, so its contents at
  region 1's entry are that operation's result over operands that are themselves either launched arrays no operation
  writes, or (for the per-node sums) region 0's output as its write-backs leave it. Stated first as whole arrays, the
  operations spelled as the program prints them, then index by index: a recast of a vector to a column or a row keeps
  the element's position; a slice of columns followed by a transpose reads row j, column offset + k; a block of rows
  written at the top of a zero matrix reads, inside the block, the row written.
-/
import proofs.«410608_j59622736003308_3_alg».proof.Proof.Gen.KernelIdeal.Frame
import proofs.«410608_j59622736003308_3_alg».proof.Proof.Spec
import proofs.«410608_j59622736003308_3_alg».proof.Proof.LibPadScatter
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.HostB

open Cert.KernelIdeal Cert.KernelIdeal.Gen
open Idealize.ShloMosaic Idealize.ShloMosaic.TcCoe Idealize.ShloMosaic.ValueIdx

variable {F : FTy → Type} [FloatOps F]

variable (m : (ℓ : Loc nD τ sig) → Buf (Elt F) ℓ) (ρ : Dev nD → PrngReg) (c : Dev nD)

/-- A buffer that no operation of a stretch writes holds after the stretch what it held before. -/
local macro "stretch_keeps" ops:ident : tactic => `(tactic|
  exact StableHlo.after_of_forall_not_mem _ _ (List.forall_iff_forall_mem.mp (by
    simp only [$ops:ident, List.flatten_cons, List.flatten_nil, List.append_nil, List.cons_append, List.nil_append,
      List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

/-! ## The argument arrays at region 0's exit and before it: as launched -/

/-- No host operation and no region writes the combining weights: at region 0's exit they are as launched. -/
theorem W4_arg8 : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := by stretch_keeps hostOps0_2
    _ = W1 m ρ c (Proc.devRef .tc main_arg8) := by stretch_keeps hostOps0_1
    _ = W0 m ρ c (Proc.devRef .tc main_arg8) := by stretch_keeps hostOps0
    _ = m ((c : Thread nD τ).loc main_arg8) := rfl

/-- Likewise the combining bias. -/
theorem W4_arg9 : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := by stretch_keeps hostOps0_2
    _ = W1 m ρ c (Proc.devRef .tc main_arg9) := by stretch_keeps hostOps0_1
    _ = W0 m ρ c (Proc.devRef .tc main_arg9) := by stretch_keeps hostOps0
    _ = m ((c : Thread nD τ).loc main_arg9) := rfl

/-- Before the stretch that pads it, the atoms' embedding table is as launched: neither earlier stretch writes it. -/
theorem W2_arg4 : W2 m ρ c (Proc.devRef .tc main_arg4) = m ((c : Thread nD τ).loc main_arg4) :=
  calc W2 m ρ c (Proc.devRef .tc main_arg4)
    _ = W1 m ρ c (Proc.devRef .tc main_arg4) := by stretch_keeps hostOps0_1
    _ = W0 m ρ c (Proc.devRef .tc main_arg4) := by stretch_keeps hostOps0
    _ = m ((c : Thread nD τ).loc main_arg4) := rfl

/-! ## Whole arrays at region 1's entry -/

/-- The atomic numbers as a column: the launched vector recast to [50000, 1] by the first stretch, which nothing
    after it writes. -/
theorem V5_v0_eq : (V5 m ρ c main_v0 : S50000x1.Idx → Elt F .i32)
    = shapeCast S50000x1 (m ((c : Thread nD τ).loc main_arg0) : S50000.Idx → Elt F .i32) shapeCasts_S50000_S50000x1 :=
  calc W5 m ρ c (Proc.devRef .tc main_v0)
    _ = W4 m ρ c (Proc.devRef .tc main_v0) := by stretch_keeps hostOps1
    _ = W3 m ρ c (Proc.devRef .tc main_v0) := W4_of_ne m ρ c main_v0 (by decide)
    _ = W2 m ρ c (Proc.devRef .tc main_v0) := by stretch_keeps hostOps0_2
    _ = W1 m ρ c (Proc.devRef .tc main_v0) := by stretch_keeps hostOps0_1
    _ = _ := by
      show StableHlo.after hostOps0 (W0 m ρ c) (Proc.devRef .tc main_v0) = _
      after_results
      rfl

/-- The combining bias as a row: the launched vector recast to [1, 128]. -/
theorem V5_v24_eq : (V5 m ρ c main_v24 : S1x128.Idx → Elt F .f32)
    = shapeCast S1x128 (m ((c : Thread nD τ).loc main_arg9) : S128.Idx → Elt F .f32) shapeCasts_S128_S1x128 := by
  rw [← W4_arg9 m ρ c]
  show StableHlo.after hostOps1 (W4 m ρ c) (Proc.devRef .tc main_v24) = _
  after_results
  rfl

/-- The first half of the combining weights, transposed: columns 0 to 127 of the launched [128, 256] matrix, then the
    transpose. -/
theorem V5_v22_eq : (V5 m ρ c main_v22 : S128x128.Idx → Elt F .f32)
    = transpose S128x128 [1, 0] (extractStridedSlice S128x128 ![0, 0] (m ((c : Thread nD τ).loc main_arg8) : S128x256.Idx → Elt F .f32)
        slices_S128x256_S128x128_0_0) transposes_S128x128_S128x128_1_0 := by
  rw [← W4_arg8 m ρ c]
  show StableHlo.after hostOps1 (W4 m ρ c) (Proc.devRef .tc main_v22) = _
  after_results

/-- The second half of the combining weights, transposed: columns 128 to 255 of the launched matrix, then the transpose. -/
theorem V5_v23_eq : (V5 m ρ c main_v23 : S128x128.Idx → Elt F .f32)
    = transpose S128x128 [1, 0] (extractStridedSlice S128x128 ![0, 128] (m ((c : Thread nD τ).loc main_arg8) : S128x256.Idx → Elt F .f32)
        slices_S128x256_S128x128_0_128) transposes_S128x128_S128x128_1_0 := by
  rw [← W4_arg8 m ρ c]
  show StableHlo.after hostOps1 (W4 m ρ c) (Proc.devRef .tc main_v23) = _
  after_results

/-- The atoms' embedding table padded to 128 rows: the launched [101, 128] table written over the first rows of a zero
    [128, 128] matrix, at the start index 0. Neither region 0 nor the last stretch writes it. -/
theorem V5_v9_eq : (V5 m ρ c main_v9 : S128x128.Idx → Elt F .f32)
    = Host.scatter scatter_S128x128_S1_S101x128_01_n_0_0 (fun _ b => b)
        (broadcastInDim S128x128 ![] bcast_S_S128x128 (constant (F := F) S_ .f32 0x00000000#32))
        (broadcastInDim S1 ![] bcast_S_S1 (constantI S_ 32 0#32)) (m ((c : Thread nD τ).loc main_arg4) : S101x128.Idx → Elt F .f32) :=
  calc W5 m ρ c (Proc.devRef .tc main_v9)
    _ = W4 m ρ c (Proc.devRef .tc main_v9) := by stretch_keeps hostOps1
    _ = W3 m ρ c (Proc.devRef .tc main_v9) := W4_of_ne m ρ c main_v9 (by decide)
    _ = _ := by
      rw [← W2_arg4 m ρ c]
      show StableHlo.after hostOps0_2 (W2 m ρ c) (Proc.devRef .tc main_v9) = _
      after_results

/-- The edges' target rows at region 0's exit: row 0 of the launched [2, 800000] edge index, recast to a vector by the
    first stretch; nothing after that writes it. -/
theorem W4_v2 : (W4 m ρ c (Proc.devRef .tc main_v2) : S800000.Idx → Elt F .i32)
    = shapeCast S800000 (extractStridedSlice S1x800000 ![0, 0] (m ((c : Thread nD τ).loc main_arg1) : S2x800000.Idx → Elt F .i32)
        slices_S2x800000_S1x800000_0_0) shapeCasts_S1x800000_S800000 :=
  calc W4 m ρ c (Proc.devRef .tc main_v2)
    _ = W3 m ρ c (Proc.devRef .tc main_v2) := W4_of_ne m ρ c main_v2 (by decide)
    _ = W2 m ρ c (Proc.devRef .tc main_v2) := by stretch_keeps hostOps0_2
    _ = W1 m ρ c (Proc.devRef .tc main_v2) := by stretch_keeps hostOps0_1
    _ = _ := by
      show StableHlo.after hostOps0 (W0 m ρ c) (Proc.devRef .tc main_v2) = _
      after_results
      rfl

/-- The per-node sums at region 1's entry: region 0's output array, as its write-backs leave it after the last grid
    point, added row by row into a zero [50000, 128] array at the rows the edges' target rows name. -/
theorem V5_v19 : (V5 m ρ c main_v19 : S50000x128.Idx → Elt F .f32)
    = Host.scatterAdd scatter_S50000x128_S800000x1_S800000x128_1_0_0_1
        (broadcastInDim S50000x128 ![] bcast_S_S50000x128 (constant (F := F) S_ .f32 0x00000000#32))
        (broadcastInDim S800000x1 ![0] bcast_S800000_S800000x1_0
          (shapeCast S800000 (extractStridedSlice S1x800000 ![0, 0] (m ((c : Thread nD τ).loc main_arg1) : S2x800000.Idx → Elt F .i32)
            slices_S2x800000_S1x800000_0_0) shapeCasts_S1x800000_S800000))
        ((dat0 (V3 m ρ) c).arrAt 6 cfg0.N) := by
  rw [← W4_v2 m ρ c, ← W4_arr m ρ c 6]
  show StableHlo.after hostOps1 (W4 m ρ c) (Proc.devRef .tc main_v19) = _
  after_results

/-! ## The same, index by index -/

/-- Row n of the atomic numbers' column is element n of the launched vector. -/
theorem V5_v0 (n : Fin 50000) : (V5 m ρ c main_v0 : S50000x1.Idx → Elt F .i32) (ix2 n 0)
    = (m ((c : Thread nD τ).loc main_arg0) : S50000.Idx → Elt F .i32) (ix1 n) := by
  rw [V5_v0_eq]
  refine shapeCast_apply (s := S50000) (t := S50000x1) _ _ _ (ix1 n) ?_
  show (S50000.rowMajor (ix1 n)).val = (S50000x1.rowMajor (ix2 n 0)).val
  rw [Shape.rowMajor_val_two, Shape.rowMajor_val_one]
  show n.val = n.val * 1 + 0
  omega

/-- Element j of the combining bias row is element j of the launched vector. -/
theorem V5_v24 (j : Fin 128) : (V5 m ρ c main_v24 : S1x128.Idx → Elt F .f32) (ix2 0 j)
    = (m ((c : Thread nD τ).loc main_arg9) : S128.Idx → Elt F .f32) (ix1 j) := by
  rw [V5_v24_eq]
  exact shapeCast_a_1a_apply _ _ _ _

/-- Element (k, j) of the first transposed half is the launched weight at row j, column k. -/
theorem V5_v22 (k j : Fin 128) : (V5 m ρ c main_v22 : S128x128.Idx → Elt F .f32) (ix2 k j)
    = (m ((c : Thread nD τ).loc main_arg8) : S128x256.Idx → Elt F .f32) (ix2 j (Cert.Spec.lo k)) := by
  rw [V5_v22_eq, transpose_ix2_apply]
  exact slice2_axis1_apply 0 _ _ j k (Cert.Spec.lo k) (Nat.zero_add _).symm

/-- Element (k, j) of the second transposed half is the launched weight at row j, column 128 + k. -/
theorem V5_v23 (k j : Fin 128) : (V5 m ρ c main_v23 : S128x128.Idx → Elt F .f32) (ix2 k j)
    = (m ((c : Thread nD τ).loc main_arg8) : S128x256.Idx → Elt F .f32) (ix2 j (Cert.Spec.hi k)) := by
  rw [V5_v23_eq, transpose_ix2_apply]
  exact slice2_axis1_apply 128 _ _ j k (Cert.Spec.hi k) rfl

/-- Row v < 101 of the padded atoms' embedding table is row v of the launched table: the write of the table's 101 rows at start
    index 0 lands row v at row v. -/
theorem V5_v9 (v : Fin 101) (k : Fin 128) : (V5 m ρ c main_v9 : S128x128.Idx → Elt F .f32) (ix2 ⟨v.val, by omega⟩ k)
    = (m ((c : Thread nD τ).loc main_arg4) : S101x128.Idx → Elt F .f32) (ix2 v k) := by
  rw [V5_v9_eq]
  exact Cert.Lib.PadScatter.padScatter_apply scatter_S128x128_S1_S101x128_01_n_0_0.wf _ _ (fun _ => rfl) _ v (by omega) k

end Cert.KernelIdeal.HostB

end
-- ==== Proof.SpecLaws.lean ====
/-
  The identities on the extended reals that join the two spellings of the shared mathematics.
  * The cutoff's angle. The three constants are the reals 10541436 / 2^24, 13176795 / 2^22 and 5, and
    13176795 / 2^22 / 5 = 10541436 / 2^24 exactly. Division by a nonzero real is multiplication by its inverse on every
    extended real, and multiplication of extended reals is commutative and associative, so for EVERY extended real d
    (the infinities included) c · d = (π₃₂ · d) / 5. The 0/1 factor: a bit widened to a word and read signed is the bit
    read unsigned.
  * A sum of a table's entries against the 0/1 weights of one word has exactly one nonzero weight, the one at the
    word's own number: 1 · x = x and 0 · x = 0 for every extended real x.
  * A sum over 256 columns is the sum over the first 128 plus the sum over the last 128.
  * A word that is a row number of the table is its own clamped row.
-/
import proofs.«410608_j59622736003308_3_alg».proof.Proof.Spec
import Idealize.ShloMosaic.Lib.KernelVsHost
import Mathlib.Algebra.BigOperators.Fin

noncomputable section

namespace Cert.Spec

open Idealize.ShloMosaic

/-! ## The constants -/

/-- The kernel's folded angle constant denotes 10541436 / 2^24. -/
theorem ofBits_angleK : Ideal.ofBits .f32 0x3F20D97C#32 = ((10541436 / 2 ^ 24 : ℝ) : EReal) := by
  simp [Ideal.ofBits, Ideal.ieee, -EReal.coe_mul]; norm_num

/-- The reference's single-precision π denotes 13176795 / 2^22. -/
theorem ofBits_pi32 : Ideal.ofBits .f32 0x40490FDB#32 = ((13176795 / 2 ^ 22 : ℝ) : EReal) := by
  simp [Ideal.ofBits, Ideal.ieee, -EReal.coe_mul]; norm_num

/-- The cutoff radius denotes 5. -/
theorem ofBits_five : Ideal.ofBits .f32 0x40A00000#32 = ((5 : ℝ) : EReal) := by
  simp [Ideal.ofBits, Ideal.ieee, -EReal.coe_mul]; norm_num

/-! ## The cutoff -/

/-- The two angles agree at every extended real: the folded constant is a fifth of π₃₂, and a product by real factors
    regroups freely. -/
theorem angle_eq (d : EReal) :
    Ideal.ofBits .f32 0x3F20D97C#32 * d
      = Ideal.div (Ideal.ofBits .f32 0x40490FDB#32 * d) (Ideal.ofBits .f32 0x40A00000#32) := by
  rw [ofBits_angleK, ofBits_pi32, ofBits_five, Ideal.div_coe (by norm_num : (5 : ℝ) ≠ 0), mul_right_comm,
    ← EReal.coe_mul]
  congr 2
  norm_num

/-- A bit widened to a word and read signed, as a real, is the bit read unsigned. -/
theorem bit_factor (b : BitVec 1) : ((((b.setWidth 32).toInt : ℤ) : ℝ) : EReal) = ((b.toNat : ℝ) : EReal) := by
  rw [toInt_setWidth_bit]
  norm_cast

/-- The kernel's spelling of the cutoff is the reference's. -/
theorem cutoffK_eq (d : EReal) : cutoffK d = cutoff d := by
  unfold cutoffK cutoff
  rw [angle_eq, bit_factor]

/-! ## The 0/1 weights -/

/-- A word is the number v (below 128) exactly when v is the word's value. -/
theorem eq_ofNat_iff (w : BitVec 32) (v : Fin 128) : w = BitVec.ofNat 32 v.val ↔ v.val = w.toNat := by
  have hv := v.isLt
  constructor
  · intro h
    rw [h, BitVec.toNat_ofNat]
    omega
  · intro h
    apply BitVec.eq_of_toNat_eq
    rw [BitVec.toNat_ofNat, h]
    have := w.isLt
    omega

/-- The weight of row v for the word w is one at the word's own number and zero elsewhere. -/
theorem oh_eq (w : BitVec 32) (v : Fin 128) : oh w v = if v.val = w.toNat then 1 else 0 := by
  unfold oh
  rw [bit_factor]
  show (((BitVec.ofBool (w == BitVec.ofNat 32 v.val)).toNat : ℝ) : EReal) = _
  by_cases h : v.val = w.toNat
  · rw [if_pos h, beq_iff_eq.mpr ((eq_ofNat_iff w v).mpr h)]
    show (((1 : ℕ) : ℝ) : EReal) = 1
    norm_num
  · rw [if_neg h, beq_eq_false_iff_ne.mpr (fun e => h ((eq_ofNat_iff w v).mp e))]
    show (((0 : ℕ) : ℝ) : EReal) = 0
    norm_num

/-- A sum against the 0/1 weights of a word below 128 reads the one term at the word's number. -/
theorem onehot_sum (w : BitVec 32) (hw : w.toNat < 128) (f : Fin 128 → EReal) :
    ∑ v : Fin 128, oh w v * f v = f ⟨w.toNat, hw⟩ := by
  rw [Finset.sum_eq_single (⟨w.toNat, hw⟩ : Fin 128)]
  · rw [oh_eq, if_pos rfl, one_mul]
  · intro v _ hv
    rw [oh_eq, if_neg (fun h => hv (Fin.ext h)), zero_mul]
  · intro h
    exact absurd (Finset.mem_univ _) h

/-! ## The two halves of 256 columns -/

/-- A sum over 256 columns is the sum over the first 128 plus the sum over the last 128. -/
theorem sum_split (f : Fin 256 → EReal) :
    ∑ k : Fin 256, f k = (∑ k : Fin 128, f (lo k)) + ∑ k : Fin 128, f (hi k) :=
  Fin.sum_univ_add (a := 128) (b := 128) f

/-! ## A row number is its own clamped row -/

/-- A word that is a row number of an N-row table, read signed, is below N read unsigned. -/
theorem toNat_lt_of_row (N : Nat) (hN : 0 < N) (w : BitVec 32) (h0 : 0 ≤ w.toInt) (h1 : w.toInt < N) :
    w.toNat < N := by
  have hv := clampRow_val N hN w h0 h1
  have hl := (clampRow N hN w).isLt
  omega

/-- Such a word's clamped row is the row of its own number. -/
theorem clampRow_eq (N : Nat) (hN : 0 < N) (w : BitVec 32) (h0 : 0 ≤ w.toInt) (h1 : w.toInt < N) :
    clampRow N hN w = ⟨w.toNat, toNat_lt_of_row N hN w h0 h1⟩ :=
  Fin.ext (clampRow_val N hN w h0 h1)

/-- An atomic number in [0, 101): below 101 (so below 128) read unsigned, and its own clamped row of the 101-row tables. -/
theorem clampRow_lt (w : BitVec 32) (h0 : 0 ≤ w.toInt) (h1 : w.toInt < 101) :
    w.toNat < 101 ∧ w.toNat < 128 ∧ (clampRow 101 (by decide) w).val = w.toNat := by
  have hl := toNat_lt_of_row 101 (by decide) w h0 (by omega)
  exact ⟨hl, by omega, clampRow_val 101 (by decide) w h0 (by omega)⟩

end Cert.Spec

end
-- ==== Proof.LibRowGather.lean ====
/-
  A row lookup on the host, read at an index. What table[rows] of a matrix table : [N, C] at an integer array rows : [E]
  lowers to: a gather with offset axis 1, collapsed slice axis 0, start index map [0], slices of one whole row, over the
  rows laid out as [E, 1]. Result element (e, k) is the table at row rows[e, 0], read as a signed integer and kept inside
  [0, N − 1] as the host's gather keeps every start index, and at column k.
-/
import Idealize.ShloMosaic.Lib.ValueIdx

noncomputable section

namespace Cert.Lib.RowGather

open Idealize.ShloMosaic Idealize.ShloMosaic.ValueIdx

variable {α : Type}

/-- Those dimension numbers for a table [N, C], rows [E, 1] and result [E, C]; their conditions are decided on a
    program's literal shapes. -/
abbrev rowDims (N C E : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

section Coordinates

variable {N C E w : Nat} (wf : GatherDims.WF ⟨2, ![N, C]⟩ ⟨2, ![E, 1]⟩ ⟨2, ![E, C]⟩ [1] [0] [] [0] [] 1 ![1, C])
  (idx : IVec ⟨2, ![E, 1]⟩ w) (e : Fin E) (k : Fin C)

/-- On the table's row axis the operand index is the start index: the word at (e, 0), signed, kept inside the table. -/
theorem coord_row :
    (rowDims N C E wf).start (ix2 e k) idx (0 : Fin 2) + (rowDims N C E wf).batchCoord (ix2 e k) (0 : Fin 2)
      + (rowDims N C E wf).offCoord (ix2 e k) (0 : Fin 2)
      = min (idx (ix2 e ⟨0, Nat.one_pos⟩)).toInt.toNat (N - 1) := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowDims N C E wf).startIndexMap from List.mem_singleton.mpr rfl)]
  have hsi : (rowDims N C E wf).siIdx (ix2 e k) ⟨List.idxOf (0 : Fin 2) (rowDims N C E wf).startIndexMap,
      List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]
  rfl

/-- On the table's column axis the operand index is the result's column. -/
theorem coord_col :
    (rowDims N C E wf).start (ix2 e k) idx (1 : Fin 2) + (rowDims N C E wf).batchCoord (ix2 e k) (1 : Fin 2)
      + (rowDims N C E wf).offCoord (ix2 e k) (1 : Fin 2) = k.val := by
  rw [GatherDims.batchCoord_eq_zero _ _ _ List.not_mem_nil]
  have hs : (rowDims N C E wf).start (ix2 e k) idx (1 : Fin 2) = 0 := by
    unfold GatherDims.start
    rw [dif_neg (fun h => absurd (congrArg Fin.val (List.mem_singleton.mp h)) Nat.one_ne_zero)]
  rw [hs]
  simp only [Nat.add_zero, Nat.zero_add]
  rfl

end Coordinates

/-- The lookup read at (e, k): row rows[e, 0] (signed, kept inside the table), column k. -/
theorem rowGather_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowDims N C E wf) x idx (ix2 e k)
      = x (ix2 ⟨min (idx (ix2 e ⟨0, Nat.one_pos⟩)).toInt.toNat (N - 1), by omega⟩ k) := by
  unfold Host.gather
  congr 1
  funext a
  refine Fin.ext ?_
  match a with
  | ⟨0, _⟩ => exact coord_row wf idx e k
  | ⟨1, _⟩ => exact coord_col wf idx e k

end Cert.Lib.RowGather

end
-- ==== Proof.RefRead.lean ====
/-
  The reference's two stages, read at an index.
  * The message of edge e at column j: the edge's 64 features against row j of the projection weights, plus the bias,
    times the cosine cutoff of the edge's length, times column j of the neighbour table's row named by the atomic
    number of the edge's source node.
  * The output at node n, column j: the node's own embedding row against the first 128 columns of row j of the
    combining weights, plus the node's summed messages against the last 128 columns, plus the bias.
  A table lookup t[i] keeps a word i that is not negative as it is (the wrap-around for negative words is a select on
  i < 0) and then reads the row the word names, kept inside the table; the atomic numbers are assumed inside
  [0, 101) and the source columns inside [0, 50000). The scatter-add stage stays opaque here.
-/
import proofs.«410608_j59622736003308_3_alg».proof.Proof.Gen.ReferenceIdeal.Read
import proofs.«410608_j59622736003308_3_alg».proof.Proof.Spec
import proofs.«410608_j59622736003308_3_alg».proof.Proof.LibRowGather
import Idealize.ShloMosaic.Lib.Pipeline.Value
import Idealize.ShloMosaic.PureOps.Ideal.Laws
import Idealize.ShloMosaic.Lib.ValueIdx
import Mathlib.Algebra.BigOperators.Fin

noncomputable section

namespace Cert.ReferenceIdeal.RefRead

open Cert.ReferenceIdeal Cert.ReferenceIdeal.Gen Cert.ReferenceIdeal.Read Idealize.ShloMosaic Idealize.ShloMosaic.ValueIdx Cert.Spec
open Cert.Lib.RowGather

/-! ## The lookup's index word -/

/-- A word that is not negative is not below zero, so the lookup's wrap-around select keeps it. -/
theorem select_of_nonneg (w a : BitVec 32) (h : 0 ≤ w.toInt) :
    Scalar.select (IntOp.cmpi .slt w 0#32) a w = w := by
  have hs : w.slt 0#32 = false := by
    unfold BitVec.slt
    rw [BitVec.toInt_zero]
    exact decide_eq_false (by omega)
  show Scalar.select (BitVec.ofBool (w.slt 0#32)) a w = w
  rw [hs]
  exact select_zero a w

/-- The two host lookups' dimension records are the row lookup's. -/
theorem gatherZ_eq : gather_S101x128_S50000x1_S50000x128_1_0_n_n_0_1_1128
    = rowDims 101 128 50000 gather_S101x128_S50000x1_S50000x128_1_0_n_n_0_1_1128_wf := rfl

theorem gatherCol_eq : gather_S50000x128_S800000x1_S800000x128_1_0_n_n_0_1_1128
    = rowDims 50000 128 800000 gather_S50000x128_S800000x1_S800000x128_1_0_n_n_0_1_1128_wf := rfl

/-- A row lookup read at (e, k), the row spelled with the clamp of the specification. -/
theorem rowGather_clamp {α : Type} {N C E : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ 32) (e : Fin E) (k : Fin C) :
    Host.gather (rowDims N C E wf) x idx (ix2 e k)
      = x (ix2 (clampRow N hN (idx (ix2 e ⟨0, Nat.one_pos⟩))) k) :=
  rowGather_apply hN wf x idx e k

section Words

variable (x0 : (⟨S50000, .i32⟩ : BufTy).Contents (Elt Ideal)) (x1 : (⟨S2x800000, .i32⟩ : BufTy).Contents (Elt Ideal))

/-- The atomic-number column of the first lookup: word n of z, when it is not negative. -/
theorem v9_word (n : Fin 50000) (h : 0 ≤ (x0 (ix1 n)).toInt) :
    val_main_v9 (F := Ideal) x0 (ix2 n ⟨0, Nat.one_pos⟩) = x0 (ix1 n) := by
  have e1 : idx_main_v9 (ix2 n ⟨0, Nat.one_pos⟩) = ix1 n := funext fun a => match a with | ⟨0, _⟩ => rfl
  rw [val_main_v9_apply, e1, val_main_v8_apply, val_main_v5_apply, val_main_v4_apply, val_main_c_apply]
  exact select_of_nonneg _ _ h

/-- The same column as the second lookup rebuilds it. -/
theorem v37_word (n : Fin 50000) (h : 0 ≤ (x0 (ix1 n)).toInt) :
    val_main_v37 (F := Ideal) x0 (ix2 n ⟨0, Nat.one_pos⟩) = x0 (ix1 n) := by
  have e1 : idx_main_v37 (ix2 n ⟨0, Nat.one_pos⟩) = ix1 n := funext fun a => match a with | ⟨0, _⟩ => rfl
  rw [val_main_v37_apply, e1, val_main_v36_apply, val_main_v33_apply, val_main_v32_apply, val_main_c_5_apply]
  exact select_of_nonneg _ _ h

/-- Row 1 of the edge list, flattened: word e is the edge's source column. -/
theorem v3_word (e : Fin 800000) : val_main_v3 (F := Ideal) x1 (ix1 e) = x1 (ix2 (1 : Fin 2) e) := by
  have e1 : idx_main_v2 (idx_main_v3 (ix1 e)) = ix2 (1 : Fin 2) e := funext fun a => Fin.ext (by
    match a with
    | ⟨0, _⟩ => rfl
    | ⟨1, _⟩ => exact Nat.mod_eq_of_lt e.isLt)
  rw [val_main_v3_apply, val_main_v2_apply, e1]

/-- The source column of the third lookup: word e of row 1, when it is not negative. -/
theorem v44_word (e : Fin 800000) (h : 0 ≤ (x1 (ix2 (1 : Fin 2) e)).toInt) :
    val_main_v44 (F := Ideal) x1 (ix2 e ⟨0, Nat.one_pos⟩) = x1 (ix2 (1 : Fin 2) e) := by
  have e1 : idx_main_v44 (ix2 e ⟨0, Nat.one_pos⟩) = ix1 e := funext fun a => match a with | ⟨0, _⟩ => rfl
  rw [val_main_v44_apply, e1, val_main_v43_apply, val_main_v40_apply, val_main_v39_apply, val_main_c_7_apply, v3_word]
  exact select_of_nonneg _ _ h

end Words

/-! ## The message stage -/

section Msg

variable (x0 : (⟨S50000, .i32⟩ : BufTy).Contents (Elt Ideal)) (x1 : (⟨S2x800000, .i32⟩ : BufTy).Contents (Elt Ideal))
  (x2 : (⟨S800000, .f32⟩ : BufTy).Contents (Elt Ideal)) (x3 : (⟨S800000x64, .f32⟩ : BufTy).Contents (Elt Ideal))
  (x5 : (⟨S101x128, .f32⟩ : BufTy).Contents (Elt Ideal)) (x6 : (⟨S128x64, .f32⟩ : BufTy).Contents (Elt Ideal))
  (x7 : (⟨S128, .f32⟩ : BufTy).Contents (Elt Ideal))

/-- The cutoff chain at edge e is the specification's cutoff of the edge's length. -/
theorem cut_apply (e : Fin 800000) : val_main_v23 (F := Ideal) x2 (ix1 e) = cutoff (x2 (ix1 e)) := by
  rw [val_main_v23_apply, val_main_v19_apply, val_main_v18_apply, val_main_cst_3_apply, val_main_v17_apply,
    val_main_v15_apply, val_main_v14_apply, val_main_v12_apply, val_main_v11_apply, val_main_cst_apply,
    val_main_v13_apply, val_main_cst_1_apply, val_main_v16_apply, val_main_cst_2_apply, val_main_v22_apply,
    val_main_v21_apply, val_main_v20_apply, val_main_cst_4_apply]
  rfl

/-- The cutoff laid along the 128 columns. -/
theorem cutB_apply (e : Fin 800000) (j : Fin 128) :
    val_main_v30 (F := Ideal) x2 (ix2 e j) = cutoff (x2 (ix1 e)) := by
  have e1 : idx_main_v29 (idx_main_v30 (ix2 e j)) = ix1 e := funext fun a => match a with | ⟨0, _⟩ => rfl
  rw [val_main_v30_apply, val_main_v29_apply, e1, cut_apply]

/-- The projected edge feature with its bias: row e of the features against row j of the weights. -/
theorem proj_apply (e : Fin 800000) (j : Fin 128) :
    val_main_v28 (F := Ideal) x3 x6 x7 (ix2 e j)
      = (∑ k : Fin 64, x3 (ix2 e k) * x6 (ix2 j k)) + x7 (ix1 j) := by
  have el : ∀ k : Fin 64, lidx_main_v25 (ix2 e j) k = ix2 e k := fun k => funext fun a => Fin.ext (by
    match a with
    | ⟨0, _⟩ => rfl
    | ⟨1, _⟩ => rfl)
  have er : ∀ k : Fin 64, idx_main_v24 (ridx_main_v25 (ix2 e j) k) = ix2 j k := fun k => funext fun a => Fin.ext (by
    match a with
    | ⟨0, _⟩ => rfl
    | ⟨1, _⟩ => rfl)
  have eb : idx_main_v26 (idx_main_v27 (ix2 e j)) = ix1 j := funext fun a => match a with | ⟨0, _⟩ => rfl
  rw [val_main_v28_apply, val_main_v25_apply, val_main_v27_apply, val_main_v26_apply, eb]
  simp only [val_main_v24_apply, el, er]
  rfl

/-- The neighbour table's row for node n: the row its atomic number names. -/
theorem nbr_apply (hz : ∀ n : Fin 50000, 0 ≤ (x0 (ix1 n)).toInt ∧ (x0 (ix1 n)).toInt < 101)
    (n : Fin 50000) (k : Fin 128) :
    val_main_v38 (F := Ideal) x0 x5 (ix2 n k) = x5 (ix2 (clampRow 101 (by decide) (x0 (ix1 n))) k) := by
  unfold val_main_v38
  rw [gatherZ_eq, rowGather_clamp (by decide), v37_word x0 n (hz n).1]

/-- The neighbour row of edge e's source node. -/
theorem nbrCol_apply (hz : ∀ n : Fin 50000, 0 ≤ (x0 (ix1 n)).toInt ∧ (x0 (ix1 n)).toInt < 101)
    (hcol : ∀ e : Fin 800000, 0 ≤ (x1 (ix2 (1 : Fin 2) e)).toInt ∧ (x1 (ix2 (1 : Fin 2) e)).toInt < 50000)
    (e : Fin 800000) (j : Fin 128) :
    val_main_v45 (F := Ideal) x0 x1 x5 (ix2 e j)
      = x5 (ix2 (clampRow 101 (by decide) (x0 (ix1 (clampRow 50000 (by decide) (x1 (ix2 (1 : Fin 2) e)))))) j) := by
  unfold val_main_v45
  rw [gatherCol_eq, rowGather_clamp (by decide), v44_word x1 e (hcol e).1, nbr_apply x0 x5 hz]

/-- The message of edge e at column j: the projected feature, scaled by the cutoff, times the source node's neighbour row. -/
theorem msg_apply (hz : ∀ n : Fin 50000, 0 ≤ (x0 (ix1 n)).toInt ∧ (x0 (ix1 n)).toInt < 101)
    (hcol : ∀ e : Fin 800000, 0 ≤ (x1 (ix2 (1 : Fin 2) e)).toInt ∧ (x1 (ix2 (1 : Fin 2) e)).toInt < 50000)
    (e : Fin 800000) (j : Fin 128) :
    val_main_v46 (F := Ideal) x0 x1 x2 x3 x5 x6 x7 (ix2 e j)
      = (((∑ k : Fin 64, x3 (ix2 e k) * x6 (ix2 j k)) + x7 (ix1 j)) * cutoff (x2 (ix1 e)))
          * x5 (ix2 (clampRow 101 (by decide) (x0 (ix1 (clampRow 50000 (by decide) (x1 (ix2 (1 : Fin 2) e)))))) j) := by
  rw [val_main_v46_apply, val_main_v31_apply, proj_apply, cutB_apply, nbrCol_apply x0 x1 x5 hz hcol]
  rfl

end Msg

/-! ## The output stage -/

/-- A sum over 256 columns is the sum over the first 128 plus the sum over the last 128. -/
theorem sum_lo_hi {M : Type*} [AddCommMonoid M] (f : Fin 256 → M) :
    ∑ k : Fin 256, f k = (∑ k : Fin 128, f (lo k)) + ∑ k : Fin 128, f (hi k) :=
  Fin.sum_univ_add (a := 128) (b := 128) f

section Out

variable (x0 : (⟨S50000, .i32⟩ : BufTy).Contents (Elt Ideal)) (x1 : (⟨S2x800000, .i32⟩ : BufTy).Contents (Elt Ideal))
  (x2 : (⟨S800000, .f32⟩ : BufTy).Contents (Elt Ideal)) (x3 : (⟨S800000x64, .f32⟩ : BufTy).Contents (Elt Ideal))
  (x4 x5 : (⟨S101x128, .f32⟩ : BufTy).Contents (Elt Ideal)) (x6 : (⟨S128x64, .f32⟩ : BufTy).Contents (Elt Ideal))
  (x7 : (⟨S128, .f32⟩ : BufTy).Contents (Elt Ideal)) (x8 : (⟨S128x256, .f32⟩ : BufTy).Contents (Elt Ideal))
  (x9 : (⟨S128, .f32⟩ : BufTy).Contents (Elt Ideal))

/-- The atom table's row for node n: the row its atomic number names. -/
theorem atom_apply (hz : ∀ n : Fin 50000, 0 ≤ (x0 (ix1 n)).toInt ∧ (x0 (ix1 n)).toInt < 101)
    (n : Fin 50000) (k : Fin 128) :
    val_main_v10 (F := Ideal) x0 x4 (ix2 n k) = x4 (ix2 (clampRow 101 (by decide) (x0 (ix1 n))) k) := by
  unfold val_main_v10
  rw [gatherZ_eq, rowGather_clamp (by decide), v9_word x0 n (hz n).1]

/-- The joined row's first 128 columns are the node's own embedding. -/
theorem cat_lo (n : Fin 50000) (k : Fin 128) :
    val_main_v50 (F := Ideal) x0 x1 x2 x3 x4 x5 x6 x7 (ix2 n (lo k)) = val_main_v10 (F := Ideal) x0 x4 (ix2 n k) := by
  unfold val_main_v50
  exact concatenate_pair_apply_left (1 : Fin S50000x256.rank) _ _ concatenates_S50000x128_S50000x128_S50000x256_d1
    (ix2 n (lo k)) rfl (ix2 n k) (fun b => match b with
      | ⟨0, _⟩ => rfl
      | ⟨1, _⟩ => rfl)

/-- The joined row's last 128 columns are the summed messages. -/
theorem cat_hi (n : Fin 50000) (k : Fin 128) :
    val_main_v50 (F := Ideal) x0 x1 x2 x3 x4 x5 x6 x7 (ix2 n (hi k))
      = val_main_v49 (F := Ideal) x0 x1 x2 x3 x5 x6 x7 (ix2 n k) := by
  unfold val_main_v50
  exact concatenate_pair_apply_right (1 : Fin S50000x256.rank) _ _ concatenates_S50000x128_S50000x128_S50000x256_d1
    (ix2 n (hi k)) rfl rfl (ix2 n k) (fun b => match b with
      | ⟨0, _⟩ => fun _ => rfl
      | ⟨1, _⟩ => fun h => absurd rfl h)
    (Nat.add_comm k.val 128)

/-- The output at (n, j): the node's own embedding against the first 128 columns of row j of the weights, the summed
    messages against the last 128, and the bias. -/
theorem out_apply (hz : ∀ n : Fin 50000, 0 ≤ (x0 (ix1 n)).toInt ∧ (x0 (ix1 n)).toInt < 101)
    (n : Fin 50000) (j : Fin 128) :
    val_main_v55 (F := Ideal) x0 x1 x2 x3 x4 x5 x6 x7 x8 x9 (ix2 n j)
      = ((∑ k : Fin 128, x4 (ix2 (clampRow 101 (by decide) (x0 (ix1 n))) k) * x8 (ix2 j (lo k)))
          + (∑ k : Fin 128, val_main_v49 (F := Ideal) x0 x1 x2 x3 x5 x6 x7 (ix2 n k) * x8 (ix2 j (hi k)))) + x9 (ix1 j) := by
  have el : ∀ k : Fin 256, lidx_main_v52 (ix2 n j) k = ix2 n k := fun k => funext fun a => Fin.ext (by
    match a with
    | ⟨0, _⟩ => rfl
    | ⟨1, _⟩ => rfl)
  have er : ∀ k : Fin 256, idx_main_v51 (ridx_main_v52 (ix2 n j) k) = ix2 j k := fun k => funext fun a => Fin.ext (by
    match a with
    | ⟨0, _⟩ => rfl
    | ⟨1, _⟩ => rfl)
  have eb : idx_main_v53 (idx_main_v54 (ix2 n j)) = ix1 j := funext fun a => match a with | ⟨0, _⟩ => rfl
  rw [val_main_v55_apply, val_main_v52_apply, val_main_v54_apply, val_main_v53_apply, eb]
  simp only [val_main_v51_apply, el, er]
  rw [sum_lo_hi]
  simp only [cat_lo, cat_hi, atom_apply x0 x4 hz]
  rfl

end Out

end Cert.ReferenceIdeal.RefRead

end
-- ==== Proof.KernelOut.lean ====
/-
  The nodes' output array after region 1, entry by entry, over the extended reals, as a function of the launched arrays
  and of the per-node sums region 1 finds. Region 1's grid point t writes rows 5000 t … 5000 t + 4999; entry (p, j) of
  what it writes is the node body's value at the point's blocks: a sum over the padded atom table's 128 rows weighted 0/1
  by the node's atomic number, taken against the first transposed half of the combining weights, plus the node's row of
  the per-node sums against the second half, plus the bias. An atomic number in [0, 101) names one of the table's own 101
  rows, the weights have a single one there, and the padded table holds the launched table's row at that place; the two
  transposed halves are columns k and 128 + k of row j of the launched weights.
-/
import proofs.«410608_j59622736003308_3_alg».proof.Proof.KernelRegions
import proofs.«410608_j59622736003308_3_alg».proof.Proof.KernelPayload
import proofs.«410608_j59622736003308_3_alg».proof.Proof.KernelHostB
import proofs.«410608_j59622736003308_3_alg».proof.Proof.SpecLaws

set_option maxRecDepth 16384

noncomputable section

namespace Cert.KernelIdeal.Out

open Cert.KernelIdeal Cert.KernelIdeal.Gen
open Idealize.ShloMosaic Idealize.ShloMosaic.TcCoe Idealize.ShloMosaic.ValueIdx
open Cert.Spec

variable (m : (ℓ : Loc nD τ sig) → Buf (Elt Ideal) ℓ) (ρ : Dev nD → PrngReg) (c : Dev nD)

/-- The launched arrays the nodes' output reads, at their literal shapes: the nodes' atomic numbers, the atoms' embedding
    table, the combining weights and bias; and the per-node sums as region 1 finds them. -/
abbrev atomNo : S50000.Idx → BitVec 32 := m ((c : Thread nD τ).loc main_arg0)
abbrev atomEmb : S101x128.Idx → EReal := m ((c : Thread nD τ).loc main_arg4)
abbrev combW : S128x256.Idx → EReal := m ((c : Thread nD τ).loc main_arg8)
abbrev combB : S128.Idx → EReal := m ((c : Thread nD τ).loc main_arg9)
abbrev nodeSums : S50000x128.Idx → EReal := V5 m ρ c main_v19

/-- Node `5000 t + p`'s output at column `j` after region 1, for atomic numbers in [0, 101): the 0/1-weighted sum over the
    padded atom table's 128 rows keeps the one row the node's atomic number names, which is a row of the 101-row table
    itself, so the first sum is that embedding row against the first 128 columns of row `j` of the combining weights; the
    second is the node's row of the per-node sums against the last 128 columns; then the bias at `j`. -/
theorem out_block
    (hz : ∀ n : Fin 50000, 0 ≤ (atomNo m c (ix1 n)).toInt ∧ (atomNo m c (ix1 n)).toInt < 101)
    (t : Fin cfg1.N) (p : Fin 5000) (j : Fin 128) (h : 5000 * t.val + p.val < 50000) :
    ((dat1 (F := Ideal) (V5 m ρ) c).arrAt 6 cfg1.N : S50000x128.Idx → EReal) (ix2 ⟨5000 * t.val + p.val, h⟩ j)
      = ((∑ k : Fin 128, atomEmb m c (ix2 (clampRow 101 (by decide) (atomNo m c (ix1 ⟨5000 * t.val + p.val, h⟩))) k) * combW m c (ix2 j (lo k)))
          + (∑ k : Fin 128, nodeSums m ρ c (ix2 ⟨5000 * t.val + p.val, h⟩ k) * combW m c (ix2 j (hi k))))
        + combB m c (ix1 j) := by
  rw [Regions.region1_apply (V5 m ρ) c t p j h]
  refine (Payload.k1_apply (iblk1 (V5 m ρ) c 0 t) (iblk1 (V5 m ρ) c 1 t) (iblk1 (V5 m ρ) c 2 t) (iblk1 (V5 m ρ) c 3 t)
    (iblk1 (V5 m ρ) c 4 t) (iblk1 (V5 m ρ) c 5 t) p j).trans ?_
  obtain ⟨-, hw, hrow⟩ := clampRow_lt (atomNo m c (ix1 ⟨5000 * t.val + p.val, h⟩)) (hz ⟨5000 * t.val + p.val, h⟩).1 (hz ⟨5000 * t.val + p.val, h⟩).2
  have e0 : (iblk1 (V5 m ρ) c 0 t : Vec Ideal S5000x1 .i32) (ix2 p 0) = atomNo m c (ix1 ⟨5000 * t.val + p.val, h⟩) :=
    (Regions.iblk1_0_apply (V5 m ρ) c t p 0 h).trans (HostB.V5_v0 m ρ c ⟨5000 * t.val + p.val, h⟩)
  have e1 : ∀ v k : Fin 128, (iblk1 (V5 m ρ) c 1 t : Vec Ideal S128x128 .f32) (ix2 v k)
      = (V5 m ρ c main_v9 : S128x128.Idx → EReal) (ix2 v k) :=
    fun v k => congrFun (Regions.iblk1_1_eq (V5 m ρ) c t) (ix2 v k)
  have e2 : ∀ k : Fin 128, (iblk1 (V5 m ρ) c 2 t : Vec Ideal S5000x128 .f32) (ix2 p k) = nodeSums m ρ c (ix2 ⟨5000 * t.val + p.val, h⟩ k) :=
    fun k => Regions.iblk1_2_apply (V5 m ρ) c t p k h
  have e3 : ∀ k : Fin 128, (iblk1 (V5 m ρ) c 3 t : Vec Ideal S128x128 .f32) (ix2 k j) = combW m c (ix2 j (lo k)) :=
    fun k => (congrFun (Regions.iblk1_3_eq (V5 m ρ) c t) (ix2 k j)).trans (HostB.V5_v22 m ρ c k j)
  have e4 : ∀ k : Fin 128, (iblk1 (V5 m ρ) c 4 t : Vec Ideal S128x128 .f32) (ix2 k j) = combW m c (ix2 j (hi k)) :=
    fun k => (congrFun (Regions.iblk1_4_eq (V5 m ρ) c t) (ix2 k j)).trans (HostB.V5_v23 m ρ c k j)
  have e5 : (iblk1 (V5 m ρ) c 5 t : Vec Ideal S1x128 .f32) (ix2 0 j) = combB m c (ix1 j) :=
    (congrFun (Regions.iblk1_5_eq (V5 m ρ) c t) (ix2 0 j)).trans (HostB.V5_v24 m ρ c j)
  have row : ∀ k : Fin 128, (∑ v : Fin 128, oh ((iblk1 (V5 m ρ) c 0 t : Vec Ideal S5000x1 .i32) (ix2 p 0)) v
        * (iblk1 (V5 m ρ) c 1 t : Vec Ideal S128x128 .f32) (ix2 v k))
      = atomEmb m c (ix2 (clampRow 101 (by decide) (atomNo m c (ix1 ⟨5000 * t.val + p.val, h⟩))) k) := by
    intro k
    rw [e0]
    have s : (∑ v : Fin 128, oh (atomNo m c (ix1 ⟨5000 * t.val + p.val, h⟩)) v * (iblk1 (V5 m ρ) c 1 t : Vec Ideal S128x128 .f32) (ix2 v k))
        = ∑ v : Fin 128, oh (atomNo m c (ix1 ⟨5000 * t.val + p.val, h⟩)) v * (V5 m ρ c main_v9 : S128x128.Idx → EReal) (ix2 v k) :=
      Finset.sum_congr rfl fun v _ => by rw [e1 v k]
    rw [s, onehot_sum (atomNo m c (ix1 ⟨5000 * t.val + p.val, h⟩)) hw fun v => (V5 m ρ c main_v9 : S128x128.Idx → EReal) (ix2 v k)]
    refine Eq.trans ?_ (HostB.V5_v9 m ρ c (clampRow 101 (by decide) (atomNo m c (ix1 ⟨5000 * t.val + p.val, h⟩))) k)
    exact congrArg (fun r : Fin 128 => (V5 m ρ c main_v9 : S128x128.Idx → EReal) (ix2 r k)) (Fin.ext hrow.symm)
  refine congrArg₂ (· + ·) (congrArg₂ (· + ·) ?_ ?_) e5
  · exact Finset.sum_congr rfl fun k _ => congrArg₂ (· * ·) (row k) (e3 k)
  · exact Finset.sum_congr rfl fun k _ => congrArg₂ (· * ·) (e2 k) (e4 k)

/-- The same at node `n`: node `n` is row `n % 5000` of block `n / 5000`. -/
theorem out_entry
    (hz : ∀ n : Fin 50000, 0 ≤ (atomNo m c (ix1 n)).toInt ∧ (atomNo m c (ix1 n)).toInt < 101)
    (n : Fin 50000) (j : Fin 128) :
    ((dat1 (F := Ideal) (V5 m ρ) c).arrAt 6 cfg1.N : S50000x128.Idx → EReal) (ix2 n j)
      = ((∑ k : Fin 128, atomEmb m c (ix2 (clampRow 101 (by decide) (atomNo m c (ix1 n))) k) * combW m c (ix2 j (lo k)))
          + (∑ k : Fin 128, nodeSums m ρ c (ix2 n k) * combW m c (ix2 j (hi k))))
        + combB m c (ix1 j) := by
  have hn := n.isLt
  have hN : cfg1.N = 10 := N_1
  have hsplit : 5000 * (n.val / 5000) + n.val % 5000 < 50000 := by omega
  have en : n = ⟨5000 * (n.val / 5000) + n.val % 5000, hsplit⟩ :=
    Fin.ext (show n.val = 5000 * (n.val / 5000) + n.val % 5000 by omega)
  have key := out_block m ρ c hz ⟨n.val / 5000, by rw [hN]; omega⟩ ⟨n.val % 5000, by omega⟩ j hsplit
  rw [← en] at key
  exact key

end Cert.KernelIdeal.Out

end
-- ==== Proof.KernelValue.lean ====
/-
  The kernel program's two stages as functions of its argument arrays, entry by entry, over the extended reals, for atomic
  numbers that name rows of the 101-row tables and source nodes that name nodes.
  The message of edge e at column j: region 0 wrote it as the edge body's payload of the blocks that hold edge e; the
  blocks are rows of the host-made arrays (the attributes, the lengths as a column, the atomic number of the edge's source
  node as a column, the neighbour table padded to 128 rows, the projection transposed, its bias as a row); the 0/1-weighted
  sum over the padded table's rows picks the row the atomic number names, and the kernel's cutoff is the reference's.
  The output of node n at column j: region 1 wrote it as the node body's payload; the same reading with the atom table, the
  two halves of the combining matrix transposed, and the aggregate array whatever it holds.
-/
import proofs.«410608_j59622736003308_3_alg».proof.Proof.KernelRegions
import proofs.«410608_j59622736003308_3_alg».proof.Proof.KernelPayload
import proofs.«410608_j59622736003308_3_alg».proof.Proof.KernelHostA
import proofs.«410608_j59622736003308_3_alg».proof.Proof.KernelHostB
import proofs.«410608_j59622736003308_3_alg».proof.Proof.SpecLaws
import proofs.«410608_j59622736003308_3_alg».proof.Proof.RefRead
import proofs.«410608_j59622736003308_3_alg».proof.Proof.KernelRun
import proofs.«410608_j59622736003308_3_alg».proof.Proof.KernelOut

set_option maxRecDepth 16384

noncomputable section

namespace Cert.KernelIdeal.Value

open Cert.KernelIdeal Cert.KernelIdeal.Gen
open Idealize.ShloMosaic Idealize.ShloMosaic.TcCoe Idealize.ShloMosaic.ValueIdx
open Idealize.SL.Sem
open Cert.Spec Cert.KernelIdeal.Regions Cert.KernelIdeal.Payload Cert.KernelIdeal.HostA Cert.KernelIdeal.HostB

variable (m : (ℓ : Loc nD τ sig) → Buf (Elt Ideal) ℓ) (ρ : Dev nD → PrngReg) (c : Dev nD)

/-- The argument arrays the launch memory holds, as index functions. -/
abbrev aZ : S50000.Idx → BitVec 32 := m ((c : Thread nD τ).loc main_arg0)
abbrev aEdge : S2x800000.Idx → BitVec 32 := m ((c : Thread nD τ).loc main_arg1)
abbrev aDist : S800000.Idx → EReal := m ((c : Thread nD τ).loc main_arg2)
abbrev aAttr : S800000x64.Idx → EReal := m ((c : Thread nD τ).loc main_arg3)
abbrev aAtom : S101x128.Idx → EReal := m ((c : Thread nD τ).loc main_arg4)
abbrev aNbr : S101x128.Idx → EReal := m ((c : Thread nD τ).loc main_arg5)
abbrev aProjW : S128x64.Idx → EReal := m ((c : Thread nD τ).loc main_arg6)
abbrev aProjB : S128.Idx → EReal := m ((c : Thread nD τ).loc main_arg7)
abbrev aCombW : S128x256.Idx → EReal := m ((c : Thread nD τ).loc main_arg8)
abbrev aCombB : S128.Idx → EReal := m ((c : Thread nD τ).loc main_arg9)

/-- The message of the edge at row 5000 t + p, column j, after region 0. -/
theorem msg_block (hz : ∀ n : Fin 50000, 0 ≤ (aZ m c (ix1 n)).toInt ∧ (aZ m c (ix1 n)).toInt < 101)
    (hcol : ∀ e : Fin 800000, 0 ≤ (aEdge m c (ix2 (1 : Fin 2) e)).toInt ∧ (aEdge m c (ix2 (1 : Fin 2) e)).toInt < 50000)
    (t : Fin cfg0.N) (p : Fin 5000) (j : Fin 128) (h : 5000 * t.val + p.val < 800000) :
    ((dat0 (F := Ideal) (V3 m ρ) c).arrAt 6 cfg0.N : S800000x128.Idx → EReal) (ix2 ⟨5000 * t.val + p.val, h⟩ j)
      = (((∑ k : Fin 64, aAttr m c (ix2 ⟨5000 * t.val + p.val, h⟩ k) * aProjW m c (ix2 j k)) + aProjB m c (ix1 j))
            * cutoff (aDist m c (ix1 ⟨5000 * t.val + p.val, h⟩)))
          * aNbr m c (ix2 (clampRow 101 (by decide) (aZ m c (ix1 (clampRow 50000 (by decide) (aEdge m c (ix2 (1 : Fin 2) ⟨5000 * t.val + p.val, h⟩)))))) j) := by
  rw [region0_apply (V3 m ρ) c t p j h]
  refine (k0_apply (iblk0 (V3 m ρ) c 0 t) (iblk0 (V3 m ρ) c 1 t) (iblk0 (V3 m ρ) c 2 t) (iblk0 (V3 m ρ) c 3 t) (iblk0 (V3 m ρ) c 4 t)
    (iblk0 (V3 m ρ) c 5 t) p j).trans ?_
  refine congrArg₂ (· * ·) (congrArg₂ (· * ·) (congrArg₂ (· + ·) (Finset.sum_congr rfl fun k _ => ?_) ?_) ?_) ?_
  · exact congrArg₂ (· * ·)
      ((iblk0_0_apply (V3 m ρ) c t p k h).trans (congrArg (fun f : S800000x64.Idx → EReal => f (ix2 ⟨5000 * t.val + p.val, h⟩ k)) (V3_arg3 m ρ c)))
      ((congrFun (iblk0_4_eq (V3 m ρ) c t) (ix2 k j)).trans (V3_v13 m ρ c k j))
  · exact (congrFun (iblk0_5_eq (V3 m ρ) c t) (ix2 0 j)).trans (V3_v14 m ρ c j)
  · rw [cutoffK_eq]
    exact congrArg cutoff ((iblk0_1_apply (V3 m ρ) c t p 0 h).trans (V3_v15 m ρ c ⟨5000 * t.val + p.val, h⟩))
  · have hw : (iblk0 (V3 m ρ) c 2 t : Vec Ideal S5000x1 .i32) (ix2 p 0)
        = aZ m c (ix1 (clampRow 50000 (by decide) (aEdge m c (ix2 (1 : Fin 2) ⟨5000 * t.val + p.val, h⟩)))) :=
      (iblk0_2_apply (V3 m ρ) c t p 0 h).trans (V3_v6 m ρ c ⟨5000 * t.val + p.val, h⟩ (hcol _))
    have hzw := hz (clampRow 50000 (by decide) (aEdge m c (ix2 (1 : Fin 2) ⟨5000 * t.val + p.val, h⟩)))
    rw [hw]
    generalize aZ m c (ix1 (clampRow 50000 (by decide) (aEdge m c (ix2 (1 : Fin 2) ⟨5000 * t.val + p.val, h⟩)))) = w at hzw ⊢
    obtain ⟨_, h128, hcl⟩ := clampRow_lt w hzw.1 hzw.2
    refine (onehot_sum w h128 _).trans ?_
    refine (congrFun (iblk0_3_eq (V3 m ρ) c t) _).trans ?_
    have hfin : (⟨w.toNat, h128⟩ : Fin 128) = ⟨(clampRow 101 (by decide) w).val, by omega⟩ := Fin.ext hcl.symm
    rw [hfin]
    exact V3_v12 m ρ c (clampRow 101 (by decide) w) j

/-- The message of any edge e at column j after region 0 (edge e lies in block e / 5000 at row e mod 5000). -/
theorem msg_entry (hz : ∀ n : Fin 50000, 0 ≤ (aZ m c (ix1 n)).toInt ∧ (aZ m c (ix1 n)).toInt < 101)
    (hcol : ∀ e : Fin 800000, 0 ≤ (aEdge m c (ix2 (1 : Fin 2) e)).toInt ∧ (aEdge m c (ix2 (1 : Fin 2) e)).toInt < 50000)
    (e : Fin 800000) (j : Fin 128) :
    ((dat0 (F := Ideal) (V3 m ρ) c).arrAt 6 cfg0.N : S800000x128.Idx → EReal) (ix2 e j)
      = (((∑ k : Fin 64, aAttr m c (ix2 e k) * aProjW m c (ix2 j k)) + aProjB m c (ix1 j)) * cutoff (aDist m c (ix1 e)))
          * aNbr m c (ix2 (clampRow 101 (by decide) (aZ m c (ix1 (clampRow 50000 (by decide) (aEdge m c (ix2 (1 : Fin 2) e)))))) j) := by
  have hN : cfg0.N = 160 := N_0
  have ht : e.val / 5000 < cfg0.N := by rw [hN]; have := e.isLt; omega
  have hp : e.val % 5000 < 5000 := Nat.mod_lt _ (by decide)
  have h : 5000 * (⟨e.val / 5000, ht⟩ : Fin cfg0.N).val + (⟨e.val % 5000, hp⟩ : Fin 5000).val < 800000 := by
    show 5000 * (e.val / 5000) + e.val % 5000 < 800000
    have := e.isLt; omega
  have he : (⟨5000 * (⟨e.val / 5000, ht⟩ : Fin cfg0.N).val + (⟨e.val % 5000, hp⟩ : Fin 5000).val, h⟩ : Fin 800000) = e :=
    Fin.ext (by show 5000 * (e.val / 5000) + e.val % 5000 = e.val; omega)
  have key := msg_block m ρ c hz hcol ⟨e.val / 5000, ht⟩ ⟨e.val % 5000, hp⟩ j h
  rw [he] at key
  exact key

/-- Region 0's whole output array is the reference's message array of the same arguments. -/
theorem msg_eq (hz : ∀ n : Fin 50000, 0 ≤ (aZ m c (ix1 n)).toInt ∧ (aZ m c (ix1 n)).toInt < 101)
    (hcol : ∀ e : Fin 800000, 0 ≤ (aEdge m c (ix2 (1 : Fin 2) e)).toInt ∧ (aEdge m c (ix2 (1 : Fin 2) e)).toInt < 50000) :
    ((dat0 (F := Ideal) (V3 m ρ) c).arrAt 6 cfg0.N : S800000x128.Idx → EReal)
      = Cert.ReferenceIdeal.Read.val_main_v46 (F := Ideal) (aZ m c) (aEdge m c) (aDist m c) (aAttr m c) (aNbr m c) (aProjW m c) (aProjB m c) := by
  funext i
  obtain ⟨e, j, rfl⟩ : ∃ (e : Fin 800000) (j : Fin 128), i = ix2 e j := ⟨i 0, i 1, eq_ix2 i⟩
  rw [msg_entry m ρ c hz hcol e j]
  exact (Cert.ReferenceIdeal.RefRead.msg_apply (aZ m c) (aEdge m c) (aDist m c) (aAttr m c) (aNbr m c) (aProjW m c) (aProjB m c) hz hcol e j).symm

/-- The aggregate region 1 reads is the reference's: the same rows scattered, the same messages added, into zeros. -/
theorem agg_eq (hz : ∀ n : Fin 50000, 0 ≤ (aZ m c (ix1 n)).toInt ∧ (aZ m c (ix1 n)).toInt < 101)
    (hcol : ∀ e : Fin 800000, 0 ≤ (aEdge m c (ix2 (1 : Fin 2) e)).toInt ∧ (aEdge m c (ix2 (1 : Fin 2) e)).toInt < 50000) :
    (V5 m ρ c main_v19 : S50000x128.Idx → EReal)
      = Cert.ReferenceIdeal.Read.val_main_v49 (F := Ideal) (aZ m c) (aEdge m c) (aDist m c) (aAttr m c) (aNbr m c) (aProjW m c) (aProjB m c) := by
  rw [V5_v19 m ρ c, msg_eq m ρ c hz hcol]
  rfl

/-- THE KERNEL'S RESULT ARRAY at the end of the run is the reference's result term of the same arguments: entry (n, j) is
    node n's own embedding row against the first half of row j of the combining matrix, plus the aggregate's row n against
    the second half, plus bias j, on both sides, and the aggregates agree. -/
theorem result (hz : ∀ n : Fin 50000, 0 ≤ (aZ m c (ix1 n)).toInt ∧ (aZ m c (ix1 n)).toInt < 101)
    (hcol : ∀ e : Fin 800000, 0 ≤ (aEdge m c (ix2 (1 : Fin 2) e)).toInt ∧ (aEdge m c (ix2 (1 : Fin 2) e)).toInt < 50000) :
    W6 m ρ c (Proc.devRef .tc main_v25)
      = Cert.ReferenceIdeal.Read.val_main_v55 (F := Ideal) (aZ m c) (aEdge m c) (aDist m c) (aAttr m c) (aAtom m c) (aNbr m c) (aProjW m c)
          (aProjB m c) (aCombW m c) (aCombB m c) := by
  rw [Cert.KernelIdeal.Run.W6_main_v25 m ρ c]
  funext i
  obtain ⟨n, j, rfl⟩ : ∃ (n : Fin 50000) (j : Fin 128), i = ix2 n j := ⟨i 0, i 1, eq_ix2 i⟩
  refine (Cert.KernelIdeal.Out.out_entry m ρ c hz n j).trans ?_
  rw [Cert.ReferenceIdeal.RefRead.out_apply (aZ m c) (aEdge m c) (aDist m c) (aAttr m c) (aAtom m c) (aNbr m c) (aProjW m c)
    (aProjB m c) (aCombW m c) (aCombB m c) hz n j, ← agg_eq m ρ c hz hcol]

end Cert.KernelIdeal.Value

end
-- ==== Proof.lean ====
/-
  THE WHOLE PROOF. One layer of message passing over a graph of 50000 nodes and 800000 edges, at the ideal values
  (floats are extended reals, operations exact, format changes the identity). With z the nodes' atomic numbers,
  (row, col) the edges' ends, d their lengths, a their 64 features, A and B two embedding tables of 101 rows, (P, p)
  the projection and (K, k) the combining layer, both programs compute

      msg[e, j] = ((Σ_{q < 64} a[e, q] · P[j, q]) + p[j]) · cut(d[e]) · B[z[col e], j]
      agg[n, ·] = the sum of msg[e, ·] over the edges e with row e = n
      out[n, j] = (Σ_{q < 128} A[z[n], q] · K[j, q]) + (Σ_{q < 128} agg[n, q] · K[j, 128 + q]) + k[j]

  with cut(d) = ½ (cos(π₃₂ d / 5) + 1), times 1 below the radius 5 and 0 from it on.

  The kernel computes msg in a first region, 160 tiles of 5000 edges, sums it per node on the host, and computes out in
  a second region, 10 tiles of 5000 nodes. The reference computes the same stages as whole-array operations. They
  differ in three spellings, each an identity on the extended reals, infinities included:
  * a table's row: the kernel sums the table, padded with zero rows to 128, against a 0/1 vector with its single one at
    the atomic number (0 · x = 0 and 1 · x = x for every extended real x); the reference reads the row;
  * the cutoff's angle: the kernel multiplies the length by one constant, the reference by π₃₂ and then divides by 5;
    the first constant is exactly a fifth of the second, division by 5 is multiplication by its inverse, and products
    by real factors regroup freely;
  * the last layer: the kernel multiplies the node's own row and the summed messages by the two halves of K and adds;
    the reference lays the two beside each other and takes one product over 256 columns, which is the sum over the
    first 128 plus the sum over the last 128.
  A lookup t[i] on the host wraps a negative word around and keeps the row inside the table; the precondition says the
  atomic numbers lie in [0, 101) and the source columns in [0, 50000), read signed (Proof/PreDecode.lean reads that back
  from the conjunction of reductions the claim states), and there both are the identity.

  THE ASSEMBLY, this module. The three frames are the generated runs: each program terminates from any memory with zero
  counters and leaves its ten arguments as launched. For the equality of results one value is named, the reference's
  last stage as a function of the KERNEL memory's ten arguments. The kernel's run (Proof/KernelRun.lean) ends with its
  result array at the last boundary's valuation, and that valuation is this value (Proof/KernelValue.lean, under the two
  ranges). The reference's run ends with its result at the operations' composed term of ITS memory's arguments, which is
  the last stage of them (Proof/Gen/ReferenceIdeal/Read.lean), and the two memories agree on the arguments.
-/
import proofs.«410608_j59622736003308_3_alg».proof.Defs
import proofs.«410608_j59622736003308_3_alg».proof.Proof.Gen.Kernel
import proofs.«410608_j59622736003308_3_alg».proof.Proof.Gen.Kernel.Skeleton
import proofs.«410608_j59622736003308_3_alg».proof.Proof.Gen.Kernel.Launch
import proofs.«410608_j59622736003308_3_alg».proof.Proof.Gen.Kernel.Points
import proofs.«410608_j59622736003308_3_alg».proof.Proof.Gen.Kernel.Frame
import proofs.«410608_j59622736003308_3_alg».proof.Proof.Gen.KernelIdeal
import proofs.«410608_j59622736003308_3_alg».proof.Proof.Gen.KernelIdeal.Skeleton
import proofs.«410608_j59622736003308_3_alg».proof.Proof.Gen.KernelIdeal.Launch
import proofs.«410608_j59622736003308_3_alg».proof.Proof.Gen.KernelIdeal.Points
import proofs.«410608_j59622736003308_3_alg».proof.Proof.Gen.KernelIdeal.Frame
import proofs.«410608_j59622736003308_3_alg».proof.Proof.Gen.ReferenceIdeal
import proofs.«410608_j59622736003308_3_alg».proof.Proof.Gen.ReferenceIdeal.Run
import proofs.«410608_j59622736003308_3_alg».proof.Proof.Gen.ReferenceIdeal.Read
import proofs.«410608_j59622736003308_3_alg».proof.Proof.Gen.Pre_finite_inputs
import proofs.«410608_j59622736003308_3_alg».proof.Proof.KernelRun
import proofs.«410608_j59622736003308_3_alg».proof.Proof.PreDecode
import proofs.«410608_j59622736003308_3_alg».proof.Proof.KernelValue
import Idealize.ShloMosaic.Adequacy
import Idealize.ShloMosaic.Init
import Idealize.ShloMosaic.Lib.ValueIdx

noncomputable section

namespace Cert.Proof

open Idealize.ShloMosaic Idealize.SL.Sem Cert.Kernel

/-! ## The frames -/

/-- The kernel as printed runs and leaves its arguments as launched. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference's run ends with its result at the composed term and its arguments as launched; the frame is the
    second half of that. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation of the kernel. -/
theorem preserves : Cert.preserves_Kernel_KernelIdeal := trivial

/-! ## The two results are one function of the arguments -/

/-- From memories that agree on the ten arguments, under the precondition on the kernel's: the kernel's run ends with
    its result array at the last boundary's valuation, which is the reference's last stage of the kernel memory's
    arguments once the atomic numbers lie in [0, 101) and the source columns in [0, 50000), as the precondition says;
    the reference's run ends with its result at the composed term of its own memory's arguments, which is that same
    stage, of arguments equal to the kernel's. Both posts are stated with that one value. -/
theorem algebraic : Cert.algebraic_KernelIdeal_ReferenceIdeal := by
  intro m ρ m' ρ' hpre hagree
  refine ⟨fun c => Cert.ReferenceIdeal.Read.val_main_v55 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9)), ?_, ?_⟩
  · exact (θ_run Cert.KernelIdeal.defs _ _).mono
      (fun _ h c => ⟨(h c).1.trans (Cert.KernelIdeal.Value.result m ρ c
          (fun n => Cert.PreDecode.z_range m hpre c n) (fun e => Cert.PreDecode.col_range m hpre c e)), (h c).2⟩)
      (Cert.KernelIdeal.Run.run_result (F := Ideal) m ρ)
  · refine (θ_run Cert.ReferenceIdeal.defs _ _).mono (fun _ h c => ⟨(h c).1.trans ?_, (h c).2⟩)
      (Cert.ReferenceIdeal.Value.run (F := Ideal) m' ρ')
    refine (Cert.ReferenceIdeal.Read.val_main_v55_eq (F := Ideal)
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6))
        (m' ((c.tc : Thread Cert.ReferenceIdeal.nD Cert.ReferenceIdeal.τ).loc Cert.ReferenceIdeal.main_arg7))
        (m' ((c.tc : Thread Cert.ReferenceIdeal.nD Cert.ReferenceIdeal.τ).loc Cert.ReferenceIdeal.main_arg8))
        (m' ((c.tc : Thread Cert.ReferenceIdeal.nD Cert.ReferenceIdeal.τ).loc Cert.ReferenceIdeal.main_arg9))).trans ?_
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
